-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S501 : Shape := ⟨1, ![501]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S501 : S_.BroadcastsInDim S501 (![] : Fin 0 → Fin S501.rank)
  reducesTo_S501_S_d0 : S501.ReducesTo [0] S_

variable [Facts]

def fn {F : FTy → Type} [FloatOps F] (main_arg0 : FVec F S16777216 .f32) (main_arg1 : FVec F S16777216 .f32) (main_arg2 : FVec F S501 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S501 .f32 := Host.absf main_arg2
  let main_cst_2 : FVec F S_ .f32 := constant S_ .f32 0x7F800000#32
  let main_v10 : FVec F S501 .f32 := broadcastInDim S501 ![] bcast_S_S501 main_cst_2
  let main_v11 : IVec S501 1 := cmpf .olt main_v9 main_v10
  let main_c_3 : IVec S_ 1 := constantI S_ 1 1#1
  let main_v12 : IVec S_ 1 := (fun x v => Host.reduce IntOp.andi x v reducesTo_S501_S_d0 h_S_) main_v11 main_c_3
  let main_v13 : IVec S_ 1 := andi main_v8 main_v12
  main_v13
-- ==== Kernel.lean ====
abbrev S16777216 : Shape := ⟨1, ![16777216]⟩
abbrev S501 : Shape := ⟨1, ![501]⟩
abbrev S_ : Shape := ⟨0, ![]⟩
abbrev S512 : Shape := ⟨1, ![512]⟩
abbrev S131072x128 : Shape := ⟨2, ![131072, 128]⟩
abbrev S4x128 : Shape := ⟨2, ![4, 128]⟩
abbrev S2x1x1 : Shape := ⟨3, ![2, 1, 1]⟩
abbrev S2048x128 : Shape := ⟨2, ![2048, 128]⟩
abbrev S1x1x1 : Shape := ⟨3, ![1, 1, 1]⟩
abbrev S1x1 : Shape := ⟨2, ![1, 1]⟩
abbrev S1x128 : Shape := ⟨2, ![1, 128]⟩
abbrev S128 : Shape := ⟨1, ![128]⟩
abbrev S2048x128x1 : Shape := ⟨3, ![2048, 128, 1]⟩
abbrev S2048 : Shape := ⟨1, ![2048]⟩
abbrev S2048x1 : Shape := ⟨2, ![2048, 1]⟩
abbrev S1 : Shape := ⟨1, ![1]⟩

abbrev nBuf : Space → Nat
  | .hbm => 23
  | .vmem => 8
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S501, .f32⟩
  | .hbm, ⟨3, _⟩ => ⟨S_, .f32⟩
  | .hbm, ⟨4, _⟩ => ⟨S501, .f32⟩
  | .hbm, ⟨5, _⟩ => ⟨S501, .i1⟩
  | .hbm, ⟨6, _⟩ => ⟨S_, .f32⟩
  | .hbm, ⟨7, _⟩ => ⟨S501, .f32⟩
  | .hbm, ⟨8, _⟩ => ⟨S501, .f32⟩
  | .hbm, ⟨9, _⟩ => ⟨S_, .f32⟩
  | .hbm, ⟨10, _⟩ => ⟨S501, .f32⟩
  | .hbm, ⟨11, _⟩ => ⟨S501, .f32⟩
  | .hbm, ⟨12, _⟩ => ⟨S_, .f32⟩
  | .hbm, ⟨13, _⟩ => ⟨S_, .f32⟩
  | .hbm, ⟨14, _⟩ => ⟨S512, .f32⟩
  | .hbm, ⟨15, _⟩ => ⟨S131072x128, .f32⟩
  | .hbm, ⟨16, _⟩ => ⟨S131072x128, .f32⟩
  | .hbm, ⟨17, _⟩ => ⟨S4x128, .f32⟩
  | .hbm, ⟨18, _⟩ => ⟨S2x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S4x128, .f32⟩
  | .local _ .vmem, ⟨5, _⟩ => ⟨S1x1x1, .f32⟩
  | .local _ .vmem, ⟨6, _⟩ => ⟨S1x1x1, .f32⟩
  | .local _ .vmem, ⟨7, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_cst_2 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S501 : S_.BroadcastsInDim S501 (![] : Fin 0 → Fin S501.rank)
  pads_S501_S512_0110 : S501.Pads (![0] : Fin 1 → Nat) ![11] ![0] S512
  h_S_ : 0 < S_.numel
  shapeCasts_S16777216_S131072x128 : S16777216.ShapeCasts S131072x128
  shapeCasts_S512_S4x128 : S512.ShapeCasts S4x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  natLt_1_32 : 1 < 32
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  shapeCasts_S1x128_S1x128 : S1x128.ShapeCasts S1x128
  broadcasts_S1x128_S2048x128 : S1x128.Broadcasts S2048x128
  shapeCasts_S2048x128_S2048x128x1 : S2048x128.ShapeCasts S2048x128x1
  shapeCasts_S2048x128x1_S2048x128 : S2048x128x1.ShapeCasts S2048x128
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_v6) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S501 : Shape := ⟨1, ![501]⟩
abbrev S_ : Shape := ⟨0, ![]⟩
abbrev S16777216x1 : Shape := ⟨2, ![16777216, 1]⟩

abbrev nBuf : Space → Nat
  | .hbm => 44
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S501, .f32⟩
  | .hbm, ⟨3, _⟩ => ⟨S_, .f32⟩
  | .hbm, ⟨4, _⟩ => ⟨S16777216, .f32⟩
  | .hbm, ⟨5, _⟩ => ⟨S16777216, .f32⟩
  | .hbm, ⟨6, _⟩ => ⟨S16777216, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16777216, .i32⟩
  | .hbm, ⟨11, _⟩ => ⟨S16777216, .i32⟩
  | .hbm, ⟨12, _⟩ => ⟨S_, .i32⟩
  | .hbm, ⟨13, _⟩ => ⟨S16777216, .i32⟩
  | .hbm, ⟨14, _⟩ => ⟨S16777216, .i32⟩
  | .hbm, ⟨15, _⟩ => ⟨S_, .i32⟩
  | .hbm, ⟨16, _⟩ => ⟨S16777216, .i32⟩
  | .hbm, ⟨17, _⟩ => ⟨S16777216, .i1⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S16777216, .i32⟩
  | .hbm, ⟨22, _⟩ => ⟨S16777216x1, .i32⟩
  | .hbm, ⟨23, _⟩ => ⟨S16777216, .f32⟩
  | .hbm, ⟨24, _⟩ => ⟨S_, .f32⟩
  | .hbm, ⟨25, _⟩ => ⟨S16777216, .f32⟩
  | .hbm, ⟨26, _⟩ => ⟨S16777216, .i1⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S_, .f32⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S_, .f32⟩
  | .hbm, ⟨38, _⟩ => ⟨S16777216, .f32⟩
  | .hbm, ⟨39, _⟩ => ⟨S16777216, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S16777216_S_d0 : S16777216.ReducesTo [0] S_
  h_S_ : 0 < S_.numel
  gather_S501_S16777216x1_S16777216_n_0_n_n_0_1_1_wf : GatherDims.WF S501 S16777216x1 S16777216 [] [0] [] [0] [] 1 ![1]

variable [Facts₀]

def gather_S501_S16777216x1_S16777216_n_0_n_n_0_1_1 : GatherDims S501 S16777216x1 S16777216 where
  offsetDims := []
  collapsedSliceDims := [0]
  operandBatchingDims := []
  startIndicesBatchingDims := []
  startIndexMap := [0]
  indexVectorDim := 1
  sliceSizes := ![1]
  wf := gather_S501_S16777216x1_S16777216_n_0_n_n_0_1_1_wf

class Facts : Prop extends Facts₀ where

variable [Facts]
-- ==== Proof.LibSums.lean ====
import Mathlib.Algebra.BigOperators.Fin
import Mathlib.Algebra.BigOperators.Group.Finset.Basic
import Mathlib.Data.Fintype.BigOperators
import Mathlib.Logic.Equiv.Fin.Basic
import Mathlib.Tactic.Ring
import Idealize.ShloMosaic.Lib.ValueIdx
import Idealize.ShloMosaic.Lib.Pipeline.Value

/-!
# Regrouping finite sums

Bookkeeping about finite sums in an additive commutative monoid `M` (only commutativity and associativity of `+` are
used, so every statement holds in the extended reals).

* `sum_rowMajor`: a double sum over `r < R`, `l < L` of a function of the row-major position `r·L + l` is the single
  sum over the positions `p < R·L`.
* `sum_blocks`, `sum_blocks_of_eq`: a sum over `N = nb·bs` rows taken block by block, row `= bs·s + b`.
* `sum_reshape`: two row-major readings `[R, L]` and `[H, W]` of the same `R·L = H·W` positions give the same sum.
* `sum_chan_last`, `sum_chan_first`: the channel sum of a `[B, C, H, W]` family moved innermost and back
  (the transpose between channel-second and channel-last order).
* `shapeCast_inner_apply`: a row-major reshape of the two inner axes `[B, C, H, W] → [B, C, R, L]` read at an index.
-/

open scoped BigOperators
open Idealize.ShloMosaic Idealize.ShloMosaic.ValueIdx

namespace Cert.Hand

variable {M : Type*} [AddCommMonoid M]

/-! ## Row-major positions -/

/-- The double sum over `(r, l)` of a function of the position `r·L + l` is the sum over all positions below `R·L`. -/
theorem sum_rowMajor (R L : Nat) (g : ℕ → M) :
    ∑ r : Fin R, ∑ l : Fin L, g (r.val * L + l.val) = ∑ p : Fin (R * L), g p.val := by
  rw [← Equiv.sum_comp finProdFinEquiv (fun p : Fin (R * L) => g p.val), Fintype.sum_prod_type]
  refine Finset.sum_congr rfl fun r _ => Finset.sum_congr rfl fun l _ => ?_
  congr 1
  show r.val * L + l.val = l.val + L * r.val
  rw [Nat.mul_comm, Nat.add_comm]

/-- Equal bounds, equal sums. -/
theorem sum_fin_of_eq {N N' : Nat} (e : N = N') (g : ℕ → M) : ∑ p : Fin N, g p.val = ∑ p : Fin N', g p.val := by
  subst e; rfl

/-- Two row-major readings of the same positions: `R·L = H·W`, position `r·L + l` on one side and `h·W + w` on the other. -/
theorem sum_reshape {R L H W : Nat} (e : R * L = H * W) (g : ℕ → M) :
    ∑ r : Fin R, ∑ l : Fin L, g (r.val * L + l.val) = ∑ h : Fin H, ∑ w : Fin W, g (h.val * W + w.val) := by
  rw [sum_rowMajor, sum_rowMajor, sum_fin_of_eq e]

/-! ## Rows in blocks -/

/-- `nb·bs` rows taken as `nb` blocks of `bs` rows: row `= bs·s + b`. -/
theorem sum_blocks (nb bs : Nat) (g : ℕ → M) :
    ∑ k : Fin (nb * bs), g k.val = ∑ s : Fin nb, ∑ b : Fin bs, g (bs * s.val + b.val) := by
  rw [← sum_rowMajor nb bs g]
  refine Finset.sum_congr rfl fun s _ => Finset.sum_congr rfl fun b _ => ?_
  rw [Nat.mul_comm]

/-- The same with the number of rows given by an equation `N = nb·bs`. -/
theorem sum_blocks_of_eq {N : Nat} (nb bs : Nat) (e : N = nb * bs) (g : ℕ → M) :
    ∑ k : Fin N, g k.val = ∑ s : Fin nb, ∑ b : Fin bs, g (bs * s.val + b.val) := by
  rw [sum_fin_of_eq e, sum_blocks]

/-- A function of the row itself (not only of its number): row `⟨bs·s + b, _⟩`. -/
theorem sum_blocks_fin {N : Nat} (nb bs : Nat) (e : N = nb * bs) (f : Fin N → M) :
    ∑ k : Fin N, f k = ∑ s : Fin nb, ∑ b : Fin bs,
      f ⟨bs * s.val + b.val, by
        have hs := s.isLt; have hb := b.isLt
        calc bs * s.val + b.val < bs * s.val + bs := by omega
          _ = bs * (s.val + 1) := by ring
          _ ≤ bs * nb := Nat.mul_le_mul_left _ hs
          _ = N := by rw [e, Nat.mul_comm]⟩ := by
  have key := sum_blocks_of_eq nb bs e (fun k => if h : k < N then f ⟨k, h⟩ else 0)
  have lhs : ∑ k : Fin N, (fun k => if h : k < N then f ⟨k, h⟩ else 0) k.val = ∑ k : Fin N, f k :=
    Finset.sum_congr rfl fun k _ => by simp only [k.isLt, dite_true]
  rw [← lhs, key]
  refine Finset.sum_congr rfl fun s _ => Finset.sum_congr rfl fun b _ => ?_
  have hlt : bs * s.val + b.val < N := by
    have hs := s.isLt; have hb := b.isLt
    calc bs * s.val + b.val < bs * s.val + bs := by omega
      _ = bs * (s.val + 1) := by ring
      _ ≤ bs * nb := Nat.mul_le_mul_left _ hs
      _ = N := by rw [e, Nat.mul_comm]
  simp only [hlt, dite_true]

/-! ## The channel sum moved innermost -/

/-- `∑ b, ∑ c, ∑ h, ∑ w` = `∑ b, ∑ h, ∑ w, ∑ c`: channel-second order against channel-last order. -/
theorem sum_chan_last {β γ η ω : Type*} [Fintype β] [Fintype γ] [Fintype η] [Fintype ω] (f : β → γ → η → ω → M) :
    ∑ b, ∑ c, ∑ h, ∑ w, f b c h w = ∑ b, ∑ h, ∑ w, ∑ c, f b c h w := by
  refine Finset.sum_congr rfl fun b _ => ?_
  rw [Finset.sum_comm]
  refine Finset.sum_congr rfl fun h _ => ?_
  rw [Finset.sum_comm]

/-- The other direction. -/
theorem sum_chan_first {β γ η ω : Type*} [Fintype β] [Fintype γ] [Fintype η] [Fintype ω] (f : β → γ → η → ω → M) :
    ∑ b, ∑ h, ∑ w, ∑ c, f b c h w = ∑ b, ∑ c, ∑ h, ∑ w, f b c h w :=
  (sum_chan_last f).symm

/-! ## A reshape of the two inner axes, read at an index -/

/-- `[B, C, H, W]` viewed as `[B, C, R, L]` with `R·L = H·W`: the entry at `(b, c, r, l)` is the entry at `(b, c, h, w)`
    whenever the inner positions agree, `r·L + l = h·W + w`. -/
theorem shapeCast_inner_apply {α : Type} {B C H W R L : Nat} (x : (⟨4, ![B, C, H, W]⟩ : Shape).Idx → α)
    (hs : (⟨4, ![B, C, H, W]⟩ : Shape).ShapeCasts ⟨4, ![B, C, R, L]⟩) (e : R * L = H * W)
    (b : Fin B) (c : Fin C) (r : Fin R) (l : Fin L) (h : Fin H) (w : Fin W) (hp : r.val * L + l.val = h.val * W + w.val) :
    shapeCast ⟨4, ![B, C, R, L]⟩ x hs (ix4 b c r l) = x (ix4 b c h w) :=
  shapeCast_apply x hs _ _ (by
    rw [Shape.rowMajor_val_four, Shape.rowMajor_val_four]
    show (((b.val * C + c.val) * H + h.val) * W + w.val) = (((b.val * C + c.val) * R + r.val) * L + l.val)
    have e1 : ((b.val * C + c.val) * H + h.val) * W + w.val = (b.val * C + c.val) * (H * W) + (h.val * W + w.val) := by ring
    have e2 : ((b.val * C + c.val) * R + r.val) * L + l.val = (b.val * C + c.val) * (R * L) + (r.val * L + l.val) := by ring
    rw [e1, e2, e, hp])

end Cert.Hand
-- ==== Proof.Spec.lean ====
import Idealize.ShloMosaic.PureOps.Ideal
import Idealize.ShloMosaic.PureOps.Ideal.Laws
import Idealize.ShloMosaic.Lib.ValueIdx
import proofs.«110971_j6184752906812_1_alg».proof.Proof.LibSums

/-!
# The weighted squared error, one element at a time

For a prediction `p`, a target `t` and a table `W` of 501 bin weights, element `n` contributes
`invW (W[bin t]) · (p − t) · (p − t) · 100`, where `bin t` is `t · 500` truncated to an integer and clipped into `[0, 500]`
and `invW w` is `1 / w`, replaced by `1` where `w` is below the threshold `1e-5`. The loss is the sum of the
contributions divided by the number of elements.

This module states the contribution (`term`), the form with `|p − t|` in place of `p − t` (`refTerm`) and their equality
over the extended reals (`|d| · |d| = d · d`, also at the infinities); the clipped bin and its range; the way a bin
`b ≤ 500` is looked up in a table padded to `4 × 128` entries: row `b / 128`, lane `b % 128`, found by comparing the row with
`0, 1, 2, 3` in turn (`pick_eq`); and the regrouping of a sum over `2^24` positions as a sum over `2 × 32` blocks of
`2048 × 128` entries (`sum_grid`).
-/

noncomputable section

namespace Cert.Spec

open Idealize.ShloMosaic Idealize.ShloMosaic.ValueIdx
open scoped BigOperators

/-! ## The bin of a target -/

/-- An integer word clipped into `[0, 500]` (signed): at most 500 as a natural number. -/
theorem clip_le (a : BitVec 32) : (IntOp.minsi 500#32 (IntOp.maxsi 0#32 a)).toNat ≤ 500 := by
  have ha := BitVec.toInt_eq_toNat_cond a
  have hlt := a.isLt
  unfold IntOp.minsi IntOp.maxsi
  by_cases h1 : a.slt 0#32 = true
  · rw [if_pos h1]; decide
  · rw [if_neg h1]
    by_cases h2 : (500#32 : BitVec 32).slt a = true
    · rw [if_pos h2]; decide
    · rw [if_neg h2]
      simp only [BitVec.slt, decide_eq_true_eq, not_lt] at h1 h2
      have e0 : (0#32 : BitVec 32).toInt = 0 := by decide
      have e5 : (500#32 : BitVec 32).toInt = 500 := by decide
      rw [e0] at h1; rw [e5] at h2
      split_ifs at ha <;> omega

section Generic
variable {F : FTy → Type} [FloatOps F]

/-- The bin of a target `t`: `t · 500` converted to a signed integer, clipped below at 0 and above at 500. -/
def binWord (t : F .f32) : BitVec 32 :=
  IntOp.minsi 500#32 (IntOp.maxsi 0#32 (FloatOps.fptosi 32 (FloatOps.mulf t (FloatOps.ofBits .f32 0x43FA0000#32))))

theorem binWord_le (t : F .f32) : (binWord t).toNat ≤ 500 := clip_le _

/-- The bin as a position of the 501-entry table. -/
def binIdx (t : F .f32) : Fin 501 := ⟨(binWord t).toNat, Nat.lt_succ_of_le (binWord_le t)⟩

/-- The weight applied to a bin whose table entry is `w`: `1 / w`, and `1` where `w < 1e-5`. -/
def invW (w : F .f32) : F .f32 :=
  Scalar.select (FloatOps.cmpf .olt w (FloatOps.ofBits .f32 0x3727C5AC#32)) (FloatOps.ofBits .f32 0x3F800000#32)
    (FloatOps.hostDivf (FloatOps.ofBits .f32 0x3F800000#32) w)

/-- One element's contribution: `iw · (p − t) · (p − t) · 100`. -/
def term (iw p t : F .f32) : F .f32 :=
  FloatOps.mulf (FloatOps.mulf (FloatOps.mulf iw (FloatOps.subf p t)) (FloatOps.subf p t)) (FloatOps.ofBits .f32 0x42C80000#32)

/-- The same with the absolute difference: `iw · |p − t| · |p − t| · 100`. -/
def refTerm (iw p t : F .f32) : F .f32 :=
  FloatOps.mulf (FloatOps.mulf (FloatOps.mulf iw (FloatOps.hostAbsf (FloatOps.subf p t))) (FloatOps.hostAbsf (FloatOps.subf p t)))
    (FloatOps.ofBits .f32 0x42C80000#32)

/-- The flat arrays: `2^24` predictions and targets, 501 weights. -/
abbrev SN : Shape := ⟨1, ![16777216]⟩
abbrev SW : Shape := ⟨1, ![501]⟩

/-- Element `n`'s contribution, from the arrays: the weight is looked up at the bin of the target. -/
def elt (P T : SN.Idx → F .f32) (W : SW.Idx → F .f32) (n : Fin 16777216) : F .f32 :=
  term (invW (W (ix1 (binIdx (T (ix1 n)))))) (P (ix1 n)) (T (ix1 n))

/-- The same with the absolute difference. -/
def refElt (P T : SN.Idx → F .f32) (W : SW.Idx → F .f32) (n : Fin 16777216) : F .f32 :=
  refTerm (invW (W (ix1 (binIdx (T (ix1 n)))))) (P (ix1 n)) (T (ix1 n))

end Generic

/-! ## `|d| · |d| = d · d` on the extended reals -/

/-- The square of `max d (−d)` is the square of `d`: either the maximum is `d`, or it is `−d` and the two signs cancel.
    No finiteness is needed. -/
theorem abs_mul_abs (d : EReal) : max d (-d) * max d (-d) = d * d := by
  rcases le_total d (-d) with h | h
  · rw [max_eq_right h, neg_mul_neg]
  · rw [max_eq_left h]

theorem refTerm_eq_term (iw p t : Ideal .f32) : refTerm (F := Ideal) iw p t = term (F := Ideal) iw p t := by
  unfold refTerm term
  simp only [Ideal.mulf_def, Ideal.subf_def, Ideal.hostAbsf_def, Ideal.absf_def]
  rw [mul_assoc iw, abs_mul_abs, ← mul_assoc iw]

theorem refElt_eq_elt (P T : SN.Idx → Ideal .f32) (W : SW.Idx → Ideal .f32) (n : Fin 16777216) :
    refElt (F := Ideal) P T W n = elt (F := Ideal) P T W n := refTerm_eq_term _ _ _

/-! ## Looking a bin up in the table padded to four rows of 128 lanes -/

/-- The row of a bin `b`: the signed quotient `b / 128` rounded toward zero, lowered by one where the signs of `b` and
    `128` differ and the remainder is not zero (floor division; for `0 ≤ b` it is the plain quotient). -/
def chunkWord (b : BitVec 32) : BitVec 32 :=
  Scalar.select
    (IntOp.andi
      (IntOp.cmpi .ne (IntOp.subi ((IntOp.cmpi .sgt b 0#32).setWidth 32) ((IntOp.cmpi .slt b 0#32).setWidth 32))
        (Scalar.subi (Scalar.extui (Scalar.cmpi .sgt 128#32 0#32)) (Scalar.extui (Scalar.cmpi .slt 128#32 0#32))))
      (IntOp.cmpi .ne (IntOp.remsi .vector b 128#32) 0#32))
    (IntOp.subi (IntOp.divsi .vector b 128#32) 1#32)
    (IntOp.divsi .vector b 128#32)

/-- The lane of a bin `b`: `b − 128 · row`, raised by 128 where negative. -/
def laneWord (b : BitVec 32) : BitVec 32 :=
  Scalar.select (IntOp.cmpi .slt (IntOp.subi b (IntOp.muli (chunkWord b) 128#32)) 0#32)
    (IntOp.addi (IntOp.subi b (IntOp.muli (chunkWord b) 128#32)) 128#32)
    (IntOp.subi b (IntOp.muli (chunkWord b) 128#32))

/-- For each of the 501 bins the row is `b / 128` and the lane `b % 128`: checked bin by bin. -/
theorem chunk_lane_fin : ∀ n : Fin 501, chunkWord (BitVec.ofNat 32 n.val) = BitVec.ofNat 32 (n.val / 128)
    ∧ (laneWord (BitVec.ofNat 32 n.val)).toNat % 128 = n.val % 128 := by
  decide +kernel

/-- The lookup: the entry of row 3, 2, 1 or 0 at the bin's lane, according to which of them the bin's row equals;
    `z` if none. -/
def pick {α : Type} (tab : Fin 4 → Fin 128 → α) (z : α) (b : BitVec 32) : α :=
  Scalar.select (IntOp.cmpi .eq (chunkWord b) 3#32) (tab 3 ⟨(laneWord b).toNat % 128, Nat.mod_lt _ (by decide)⟩)
    (Scalar.select (IntOp.cmpi .eq (chunkWord b) 2#32) (tab 2 ⟨(laneWord b).toNat % 128, Nat.mod_lt _ (by decide)⟩)
      (Scalar.select (IntOp.cmpi .eq (chunkWord b) 1#32) (tab 1 ⟨(laneWord b).toNat % 128, Nat.mod_lt _ (by decide)⟩)
        (Scalar.select (IntOp.cmpi .eq (chunkWord b) 0#32) (tab 0 ⟨(laneWord b).toNat % 128, Nat.mod_lt _ (by decide)⟩) z)))

theorem pick_row {α : Type} (tab : Fin 4 → Fin 128 → α) (z : α) (ln : Fin 128) : ∀ k : Fin 4,
    Scalar.select (IntOp.cmpi .eq (BitVec.ofNat 32 k.val) 3#32) (tab 3 ln)
      (Scalar.select (IntOp.cmpi .eq (BitVec.ofNat 32 k.val) 2#32) (tab 2 ln)
        (Scalar.select (IntOp.cmpi .eq (BitVec.ofNat 32 k.val) 1#32) (tab 1 ln)
          (Scalar.select (IntOp.cmpi .eq (BitVec.ofNat 32 k.val) 0#32) (tab 0 ln) z))) = tab k ln := by
  intro k
  fin_cases k <;> rfl

/-- A bin `b ≤ 500` is looked up at row `b / 128`, lane `b % 128`. -/
theorem pick_eq {α : Type} (tab : Fin 4 → Fin 128 → α) (z : α) (b : BitVec 32) (hb : b.toNat ≤ 500) :
    pick tab z b = tab ⟨b.toNat / 128, by omega⟩ ⟨b.toNat % 128, Nat.mod_lt _ (by decide)⟩ := by
  obtain ⟨n, rfl⟩ : ∃ n : Fin 501, b = BitVec.ofNat 32 n.val := ⟨⟨b.toNat, by omega⟩, by simp⟩
  have hn : (BitVec.ofNat 32 n.val).toNat = n.val := by
    rw [BitVec.toNat_ofNat]; exact Nat.mod_eq_of_lt (by have := n.isLt; omega)
  obtain ⟨hc, hl⟩ := chunk_lane_fin n
  unfold pick
  have e : (⟨(laneWord (BitVec.ofNat 32 n.val)).toNat % 128, Nat.mod_lt _ (by decide)⟩ : Fin 128)
      = ⟨(BitVec.ofNat 32 n.val).toNat % 128, Nat.mod_lt _ (by decide)⟩ :=
    Fin.ext (by show (laneWord (BitVec.ofNat 32 n.val)).toNat % 128 = (BitVec.ofNat 32 n.val).toNat % 128; omega)
  rw [e, hc]
  have hk : n.val / 128 < 4 := by have := n.isLt; omega
  have := pick_row tab z ⟨(BitVec.ofNat 32 n.val).toNat % 128, Nat.mod_lt _ (by decide)⟩ ⟨n.val / 128, hk⟩
  rw [this]
  congr 1
  exact Fin.ext (by show n.val / 128 = (BitVec.ofNat 32 n.val).toNat / 128; omega)

/-! ## `2^24` positions as `2 × 32` blocks of `2048 × 128` -/

/-- Position `((32·p + k)·2048 + r)·128 + l` of the flat array: lane `l` of row `r` of block `k` of half `p`. -/
def pos (p : Fin 2) (k : Fin 32) (r : Fin 2048) (l : Fin 128) : Fin 16777216 :=
  ⟨((32 * p.val + k.val) * 2048 + r.val) * 128 + l.val, by
    have := p.isLt; have := k.isLt; have := r.isLt; have := l.isLt; omega⟩

/-- A sum over all positions, taken half by half, block by block, row by row, lane by lane. -/
theorem sum_grid {M : Type*} [AddCommMonoid M] (f : Fin 16777216 → M) :
    ∑ n : Fin 16777216, f n = ∑ p : Fin 2, ∑ k : Fin 32, ∑ r : Fin 2048, ∑ l : Fin 128, f (pos p k r l) := by
  rw [Cert.Hand.sum_blocks_fin 2 8388608 (by norm_num) f]
  refine Finset.sum_congr rfl fun p _ => ?_
  rw [Cert.Hand.sum_blocks_fin 32 262144 (by norm_num) (fun b : Fin 8388608 => f ⟨8388608 * p.val + b.val, _⟩)]
  refine Finset.sum_congr rfl fun k _ => ?_
  rw [Cert.Hand.sum_blocks_fin 2048 128 (by norm_num) (fun b : Fin 262144 => f ⟨8388608 * p.val + (262144 * k.val + b.val), _⟩)]
  refine Finset.sum_congr rfl fun r _ => Finset.sum_congr rfl fun l _ => ?_
  congr 1
  refine Fin.ext ?_
  show 8388608 * p.val + (262144 * k.val + (128 * r.val + l.val)) = ((32 * p.val + k.val) * 2048 + r.val) * 128 + l.val
  omega

end Cert.Spec

end
-- ==== Proof.RefSide.lean ====
import proofs.«110971_j6184752906812_1_alg».proof.Proof.Gen.ReferenceIdeal.Run
import proofs.«110971_j6184752906812_1_alg».proof.Proof.Gen.ReferenceIdeal.Read
import proofs.«110971_j6184752906812_1_alg».proof.Proof.Spec
import Idealize.ShloMosaic.Lib.ValueIdx
import Idealize.ShloMosaic.Lib.ValueIdxRank1

/-!
# The reference's value: the mean of the weighted squared errors

The reference computes, for each of the `2^24` positions `n`, the bin of the target (`t · 500` truncated to an integer and
clipped into `[0, 500]`), looks the bin's weight up in the 501-entry table, inverts it (`1` where it is below `1e-5`),
multiplies by `|p − t|` twice and by `100`, sums over all positions starting from zero and divides by `2^24`.

This module reads that chain of stages at one position. The lookup reads the table at a start index taken as a signed
integer and clamped into `[0, 500]`; the start index is the bin, wrapped by `+ 501` where negative. A bin is at most 500
as a natural number, so it is not negative as a signed integer: the wrap never fires and the clamp is the identity.
Hence each element before the sum is `Cert.Spec.refElt`, which over the extended reals equals `Cert.Spec.elt`
(`|d| · |d| = d · d`), and the sum over the positions of the one-axis array is the sum over `Fin 16777216`.
-/

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The table lookup read at a position -/

/-- The start-indices position `[n, 0]` that result position `n` of the lookup reads. -/
abbrev startIdx (y : S16777216.Idx) : S16777216x1.Idx :=
  fun a => match a with | ⟨0, _⟩ => ⟨(y 0).val, (y 0).isLt⟩ | ⟨1, _⟩ => ⟨0, Nat.one_pos⟩

/-- The lookup read at position `n`: the table at the start index `idx[n, 0]`, read as a signed integer and clamped
    into `[0, 500]`. The table has one axis; it is collapsed and named by the start index map, so the position read
    on it is the clamped start alone (no batching coordinate, no offset coordinate). -/
theorem gather_apply {α : Type} {w : Nat} (x : S501.Idx → α) (idx : IVec S16777216x1 w) (y : S16777216.Idx) :
    Host.gather gather_S501_S16777216x1_S16777216_n_0_n_n_0_1_1 x idx y
      = x (ix1 ⟨min (idx (startIdx y)).toInt.toNat 500, by omega⟩) := by
  unfold Host.gather
  congr 1
  funext a
  obtain rfl : a = 0 := Subsingleton.elim _ _
  refine Fin.ext ?_
  show gather_S501_S16777216x1_S16777216_n_0_n_n_0_1_1.start y idx 0
      + gather_S501_S16777216x1_S16777216_n_0_n_n_0_1_1.batchCoord y 0
      + gather_S501_S16777216x1_S16777216_n_0_n_n_0_1_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S501_S16777216x1_S16777216_n_0_n_n_0_1_1.startIndexMap from
    List.mem_singleton.mpr rfl)]
  have hsi : gather_S501_S16777216x1_S16777216_n_0_n_n_0_1_1.siIdx y
      ⟨List.idxOf (0 : Fin 1) gather_S501_S16777216x1_S16777216_n_0_n_n_0_1_1.startIndexMap,
        List.idxOf_lt_length_iff.2 (List.mem_singleton.mpr rfl)⟩ = startIdx y := by
    funext b; refine Fin.ext ?_
    match b with
    | ⟨0, _⟩ => rfl
    | ⟨1, _⟩ => rfl
  rw [hsi]
  rfl

/-! ## Words -/

/-- A word that is at most 500 as a natural number is not negative as a signed integer: the comparison with zero
    answers the bit `0`. -/
theorem cmpi_slt_zero_of_le (b : BitVec 32) (hb : b.toNat ≤ 500) : IntOp.cmpi .slt b 0#32 = 0#1 := by
  have h : b.slt 0#32 = false := by
    simp only [BitVec.slt, decide_eq_false_iff_not, not_lt]
    have ha := BitVec.toInt_eq_toNat_cond b
    have e0 : (0#32 : BitVec 32).toInt = 0 := by decide
    rw [e0]; split_ifs at ha <;> omega
  show BitVec.ofBool (b.slt 0#32) = 0#1
  rw [h]; rfl

/-- For such a word, reading it signed and clamping into `[0, 500]` gives the word back. -/
theorem clamp_of_le (b : BitVec 32) (hb : b.toNat ≤ 500) : min b.toInt.toNat 500 = b.toNat := by
  have ha := BitVec.toInt_eq_toNat_cond b
  split_ifs at ha <;> omega

/-! ## One position, stage by stage -/

section Generic
variable {F : FTy → Type} [FloatOps F]

/-- The clip stage at a position is the bin of the target there. -/
theorem v3_eq (x1 : (⟨S16777216, .f32⟩ : BufTy).Contents (Elt F)) (i : S16777216.Idx) :
    val_main_v3 (F := F) x1 i = Cert.Spec.binWord (x1 i) := by
  rw [val_main_v3_apply, val_main_call0_v4_apply, val_main_call0_v3_apply, val_main_c_0_apply,
    val_main_call0_v2_apply, val_main_call0_v1_apply, val_main_call0_v0_apply, val_main_c_apply,
    val_main_v2_apply, val_main_v1_apply, val_main_v0_apply, val_main_cst_apply]
  rfl

/-- The wrap of a negative index (`index + 501` where `index < 0`) never fires on a bin: the stage is the bin. -/
theorem v8_eq (x1 : (⟨S16777216, .f32⟩ : BufTy).Contents (Elt F)) (i : S16777216.Idx) :
    val_main_v8 (F := F) x1 i = Cert.Spec.binWord (x1 i) := by
  rw [val_main_v8_apply, val_main_v5_apply, val_main_v4_apply, val_main_c_1_apply, v3_eq,
    cmpi_slt_zero_of_le _ (Cert.Spec.binWord_le _), select_zero]

/-- The start index that position `n` of the lookup reads is the bin of the target there. -/
theorem v9_eq (x1 : (⟨S16777216, .f32⟩ : BufTy).Contents (Elt F)) (n : Fin 16777216) :
    val_main_v9 (F := F) x1 (startIdx (ix1 n)) = Cert.Spec.binWord (x1 (ix1 n)) := by
  have hi : idx_main_v9 (startIdx (ix1 n)) = ix1 n := by
    funext a; match a with | ⟨0, _⟩ => rfl
  rw [val_main_v9_apply, hi, v8_eq]

/-- The looked-up weight at position `n` is the table at the bin of the target there: the start index is the bin,
    which is already inside `[0, 500]`, so the lookup's clamp leaves it alone. -/
theorem v10_eq (x1 : (⟨S16777216, .f32⟩ : BufTy).Contents (Elt F)) (x2 : (⟨S501, .f32⟩ : BufTy).Contents (Elt F))
    (n : Fin 16777216) :
    val_main_v10 (F := F) x1 x2 (ix1 n) = x2 (ix1 (Cert.Spec.binIdx (x1 (ix1 n)))) := by
  have hg := gather_apply x2 (val_main_v9 (F := F) x1) (ix1 n)
  refine hg.trans (congrArg x2 (congrArg ix1 (Fin.ext ?_)))
  show min (val_main_v9 (F := F) x1 (startIdx (ix1 n))).toInt.toNat 500 = (Cert.Spec.binWord (x1 (ix1 n))).toNat
  rw [v9_eq]
  exact clamp_of_le _ (Cert.Spec.binWord_le _)

/-- One element of the stage before the sum is the contribution with the absolute difference. -/
theorem v21_eq (x0 x1 : (⟨S16777216, .f32⟩ : BufTy).Contents (Elt F)) (x2 : (⟨S501, .f32⟩ : BufTy).Contents (Elt F))
    (n : Fin 16777216) :
    val_main_v21 (F := F) x0 x1 x2 (ix1 n) = Cert.Spec.refElt (F := F) x0 x1 x2 n := by
  rw [val_main_v21_apply, val_main_v20_apply, val_main_cst_6_apply, val_main_v19_apply, val_main_v18_apply,
    val_main_v17_apply, val_main_v16_apply, val_main_v15_apply, val_main_v12_apply, val_main_v11_apply,
    val_main_cst_3_apply, val_main_call1_v0_apply, val_main_cst_5_apply, val_main_v14_apply, val_main_v13_apply,
    val_main_cst_4_apply, v10_eq]
  rfl

end Generic

/-! ## The whole value -/

/-- The sum over the flat array's positions is the sum of the contributions over `Fin 16777216`: the positions of a
    one-axis array are its coordinate range, and at each the stage is the contribution with the absolute difference,
    which over the extended reals is the contribution itself. -/
theorem sum_v21 (x0 x1 : (⟨S16777216, .f32⟩ : BufTy).Contents (Elt Ideal)) (x2 : (⟨S501, .f32⟩ : BufTy).Contents (Elt Ideal)) :
    ∑ j : S16777216.Idx, val_main_v21 (F := Ideal) x0 x1 x2 j
      = ∑ n : Fin 16777216, Cert.Spec.elt (F := Ideal) x0 x1 x2 n := by
  refine (Equiv.sum_comp (idxEquiv1 (n := 16777216)).symm
    (fun j => val_main_v21 (F := Ideal) x0 x1 x2 j)).symm.trans ?_
  refine Finset.sum_congr rfl fun n _ => ?_
  show val_main_v21 (F := Ideal) x0 x1 x2 (ix1 n) = _
  rw [v21_eq, Cert.Spec.refElt_eq_elt]

/-- The reference's result: zero plus the sum of the contributions, divided by `2^24`. -/
theorem ref_value (x0 x1 : (⟨Cert.ReferenceIdeal.S16777216, .f32⟩ : BufTy).Contents (Elt Ideal))
    (x2 : (⟨Cert.ReferenceIdeal.S501, .f32⟩ : BufTy).Contents (Elt Ideal)) (i : Cert.ReferenceIdeal.S_.Idx) :
    Cert.ReferenceIdeal.Read.val_main_v23 (F := Ideal) x0 x1 x2 i
      = FloatOps.hostDivf (Ideal.ofBits .f32 0x00000000#32 + ∑ n : Fin 16777216, Cert.Spec.elt (F := Ideal) x0 x1 x2 n)
          (FloatOps.ofBits .f32 0x4B800000#32) := by
  rw [val_main_v23_apply, val_main_cst_8_apply, val_main_v22_apply, val_main_cst_7_apply, sum_v21]
  rfl

end Cert.ReferenceIdeal.RefValue

end
-- ==== Proof.Body.lean ====
import proofs.«110971_j6184752906812_1_alg».proof.Proof.Gen.KernelIdeal.Frame
import Idealize.ShloMosaic.Lib.Pipeline.Value
import Idealize.ShloMosaic.Lib.Tactic

/-!
# What one run of the kernel body leaves behind

The body keeps a one-element accumulator. At a grid point it reads the block of predictions `x0`, the block of targets `x1`
and the four rows of the weight table `x2`, sums the block's weighted squared errors to one number, adds it to the
accumulator and copies the accumulator to the output block. At the first point of each half of the grid it first resets
the accumulator to zero. So the accumulator after the body is one function `accNext` of the three blocks and of the
accumulator before (zero at a reset point), and the output block is that value reshaped.
-/

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after the body, from the blocks and the accumulator before: the body's arithmetic as one term. -/
def accNext (x0 x1 : Vec F S2048x128 .f32) (x2 : Vec F S4x128 .f32) (xs : Vec F S1x1 .f32) : Vec F S1x1 .f32 :=
  k0_pay11 (k0_pay2 x1) (k0_pay3 x0) (k0_pay5 x1) (k0_pay7 (k0_pay4 x1) (k0_pay6 x1))
    (k0_pay8 (k0_pay4 x1) (k0_pay5 x1) (k0_pay6 x1) (View.ld x2 (Rect.unit ![0, 0] ![1, 128] inb_S4x128_S1x128_0_0))
      (View.ld x2 (Rect.unit ![1, 0] ![1, 128] inb_S4x128_S1x128_1_0)))
    (k0_pay9 (View.ld x2 (Rect.unit ![2, 0] ![1, 128] inb_S4x128_S1x128_2_0))) (k0_pay10 (k0_pay4 x1) (k0_pay6 x1))
    (View.ld x2 (Rect.unit ![3, 0] ![1, 128] inb_S4x128_S1x128_3_0)) xs

/-- Away from a reset point the accumulator holding `xs0` ends at `accNext … xs0`. -/
theorem sout_B (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S4x128 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i)
    (x0 : Vec F S2048x128 .f32) (x1 : Vec F S2048x128 .f32) (x2 : Vec F S4x128 .f32) (xs0 : Vec F S1x1 .f32) :
    sout0_B_0 c i arg2 harg2 arg3 harg3 arg4 harg4 arg5 harg5 arg6 harg6 hc0 x0 x1 x2 xs0 = accNext x0 x1 x2 xs0 := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S2048x128) hz2, View.ld_unit_zero (S := S1x1) hz2]
  rfl

/-- … and the output block is that accumulator, reshaped. -/
theorem out_B (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S4x128 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i)
    (x0 : Vec F S2048x128 .f32) (x1 : Vec F S2048x128 .f32) (x2 : Vec F S4x128 .f32) (xs0 : Vec F S1x1 .f32) :
    out0_B_3 c i arg2 harg2 arg3 harg3 arg4 harg4 arg5 harg5 arg6 harg6 hc0 x0 x1 x2 xs0 = k0_pay12 (accNext x0 x1 x2 xs0) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz3, View.readCov_unit_zero (S := S1x1) _ hz2]
  simp only [View.readAt_eq_ld, harg2.read_unread, harg3.read_unread, harg4.read_unread, harg6.read_unread,
    View.ld_unit_zero (S := S2048x128) hz2, View.ld_unit_zero (S := S1x1) hz2]
  rfl

/-- At a reset point the accumulator is first set to the zero block `k0_pay1`, read back, and ends at
    `accNext … k0_pay1`. -/
theorem sout_A (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S4x128 .f32) (harg4 : arg4.IsWhole) (arg5 : Memref sig .tc .vmem S1x1x1 .f32) (harg5 : arg5.IsWhole) (arg6 : Memref sig .tc .vmem S1x1 .f32) (harg6 : arg6.IsWhole) (hc0 : cond0_0 i)
    (x0 : Vec F S2048x128 .f32) (x1 : Vec F S2048x128 .f32) (x2 : Vec F S4x128 .f32) :
    sout0_A_0 c i arg2 harg2 arg3 harg3 arg4 harg4 arg5 harg5 arg6 harg6 hc0 x0 x1 x2 = accNext x0 x1 x2 k0_pay1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread,
    View.ld_unit_zero (S := S2048x128) hz2]
  rfl

/-- … and the output block is that accumulator, reshaped. -/
theorem out_A (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S4x128 .f32) (harg4 : arg4.IsWhole) (arg5 : Memref sig .tc .vmem S1x1x1 .f32) (harg5 : arg5.IsWhole) (arg6 : Memref sig .tc .vmem S1x1 .f32) (harg6 : arg6.IsWhole) (hc0 : cond0_0 i)
    (x0 : Vec F S2048x128 .f32) (x1 : Vec F S2048x128 .f32) (x2 : Vec F S4x128 .f32) :
    out0_A_3 c i arg2 harg2 arg3 harg3 arg4 harg4 arg5 harg5 arg6 harg6 hc0 x0 x1 x2 = k0_pay12 (accNext x0 x1 x2 k0_pay1) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3, View.readCov_unit_zero (S := S1x1) _ hz2]
  rw [View.readCov_eq_canon_ld _ _ _ (fun y => ⟨_, List.mem_cons_self, View.mem_set_unit_zero hz2 inb_S1x1_S1x1_0_0 y⟩)]
  rw [View.canon_cons_unit_zero (S := S1x1) hz2, View.ld_unit_zero (S := S1x1) hz2]
  simp only [View.readAt_eq_ld, harg2.read_unread, harg3.read_unread, harg4.read_unread,
    View.ld_unit_zero (S := S2048x128) hz2]
  rfl

end Cert.KernelIdeal.Body

end
-- ==== Proof.LibFullSum.lean ====
import Mathlib.Algebra.BigOperators.Fin
import Mathlib.Algebra.BigOperators.Group.Finset.Basic
import Idealize.ShloMosaic.PureOps.Ideal.Laws
import Idealize.ShloMosaic.Lib.ValueIdx
import Idealize.ShloMosaic.Lib.Pipeline.Value
import Idealize.ShloMosaic.Lib.ValueLayout

/-!
# A block summed down to one number

A vector of extended reals over a rank-3 index set `[B, R, L]` (or a rank-4 one `[B, C, R, L]`) is summed to a single
number in steps: over the leading axis (twice for rank 4), then over the lanes `l`, then over the rows `r`.
Addition of extended reals is commutative and associative, so the result is the plain sum over all coordinates:
`∑ b, ∑ r, ∑ l, x (b, r, l)` (respectively `∑ b, ∑ c, ∑ r, ∑ l, x (b, c, r, l)`).
-/

open scoped BigOperators
open Idealize.ShloMosaic Idealize.ShloMosaic.ValueIdx

namespace Cert.Hand

/-! ## The index with one coordinate put back -/

/-- Rank 4, leading axis: `(b, c, d)` with `a` put back in front is `(a, b, c, d)`. -/
theorem lift0_ix3 {A B C D : Nat} (h : (⟨4, ![A, B, C, D]⟩ : Shape).Reduces [0] (⟨3, ![B, C, D]⟩ : Shape))
    (b : Fin B) (c : Fin C) (d : Fin D) (a : Fin A) : h.lift (ix3 b c d) a = ix4 a b c d := by
  funext k; apply Fin.ext
  fin_cases k <;> rfl

/-- Rank 3, leading axis: `(r, l)` with `b` put back in front is `(b, r, l)`. -/
theorem lift0_ix2 {B R L : Nat} (h : (⟨3, ![B, R, L]⟩ : Shape).Reduces [0] (⟨2, ![R, L]⟩ : Shape))
    (r : Fin R) (l : Fin L) (b : Fin B) : h.lift (ix2 r l) b = ix3 b r l := by
  funext k; apply Fin.ext
  fin_cases k <;> rfl

/-- Rank 2, last axis: `(r)` with the lane `l` put back is `(r, l)`. -/
theorem lift1_ix1 {R L : Nat} (h : (⟨2, ![R, L]⟩ : Shape).Reduces [1] (⟨1, ![R]⟩ : Shape))
    (r : Fin R) (l : Fin L) : h.lift (ix1 r) l = ix2 r l := by
  funext k; apply Fin.ext
  fin_cases k <;> rfl

/-- Rank 2 with a unit second axis, leading axis: `(u)` with the row `r` put back is `(r, u)`. -/
theorem lift0_ix1 {R : Nat} (h : (⟨2, ![R, 1]⟩ : Shape).Reduces [0] (⟨1, ![1]⟩ : Shape))
    (u : Fin 1) (r : Fin R) : h.lift (ix1 u) r = ix2 r u := by
  funext k; apply Fin.ext
  fin_cases k <;> rfl

/-! ## One reduction step at an index -/

section steps
variable (hφ : FKind.Formats .f32) (hacc : (0x00000000#32 : BitVec 32) = FKind.add.neutral .f32 hφ)

/-- Summing a rank-4 vector over its leading axis. -/
theorem reduce0_rank4 {A B C D : Nat} (x : FVec Ideal ⟨4, ![A, B, C, D]⟩ .f32)
    (h : (⟨4, ![A, B, C, D]⟩ : Shape).Reduces [0] (⟨3, ![B, C, D]⟩ : Shape)) (b : Fin B) (c : Fin C) (d : Fin D) :
    multiReduction .add [0] ⟨3, ![B, C, D]⟩ x 0x00000000#32 h hφ hacc (ix3 b c d) = ∑ a : Fin A, x (ix4 a b c d) := by
  refine (Ideal.multiReduction_add_single x _ h hφ hacc (ix3 b c d)).trans ?_
  exact Finset.sum_congr rfl fun a _ => congrArg x (lift0_ix3 h b c d a)

/-- Summing a rank-3 vector over its leading axis. -/
theorem reduce0_rank3 {B R L : Nat} (x : FVec Ideal ⟨3, ![B, R, L]⟩ .f32)
    (h : (⟨3, ![B, R, L]⟩ : Shape).Reduces [0] (⟨2, ![R, L]⟩ : Shape)) (r : Fin R) (l : Fin L) :
    multiReduction .add [0] ⟨2, ![R, L]⟩ x 0x00000000#32 h hφ hacc (ix2 r l) = ∑ b : Fin B, x (ix3 b r l) := by
  refine (Ideal.multiReduction_add_single x _ h hφ hacc (ix2 r l)).trans ?_
  exact Finset.sum_congr rfl fun b _ => congrArg x (lift0_ix2 h r l b)

/-- Summing a rank-2 vector over its lanes. -/
theorem reduce1_rank2 {R L : Nat} (x : FVec Ideal ⟨2, ![R, L]⟩ .f32)
    (h : (⟨2, ![R, L]⟩ : Shape).Reduces [1] (⟨1, ![R]⟩ : Shape)) (r : Fin R) :
    multiReduction .add [1] ⟨1, ![R]⟩ x 0x00000000#32 h hφ hacc (ix1 r) = ∑ l : Fin L, x (ix2 r l) := by
  refine (Ideal.multiReduction_add_single x _ h hφ hacc (ix1 r)).trans ?_
  exact Finset.sum_congr rfl fun l _ => congrArg x (lift1_ix1 h r l)

/-- Summing a one-lane column over its rows. -/
theorem reduce0_col {R : Nat} (x : FVec Ideal ⟨2, ![R, 1]⟩ .f32)
    (h : (⟨2, ![R, 1]⟩ : Shape).Reduces [0] (⟨1, ![1]⟩ : Shape)) (u : Fin 1) :
    multiReduction .add [0] ⟨1, ![1]⟩ x 0x00000000#32 h hφ hacc (ix1 u) = ∑ r : Fin R, x (ix2 r u) := by
  refine (Ideal.multiReduction_add_single x _ h hφ hacc (ix1 u)).trans ?_
  exact Finset.sum_congr rfl fun r _ => congrArg x (lift0_ix1 h u r)

/-- A vector `[R]` viewed as a column `[R, 1]`. -/
theorem shapeCast_col_apply {α : Type} {R : Nat} (x : (⟨1, ![R]⟩ : Shape).Idx → α)
    (h : (⟨1, ![R]⟩ : Shape).ShapeCasts ⟨2, ![R, 1]⟩) (r : Fin R) (u : Fin 1) :
    shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A one-element vector `[1]` viewed as `[1, 1]`. -/
theorem shapeCast_one_apply {α : Type} (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) :=
  shapeCast_apply x h _ _ (by
    have h0 : (j 0).val = 0 := by have := (j 0).isLt; simp at this; omega
    have h1 : (j 1).val = 0 := by have := (j 1).isLt; simp at this; omega
    rw [Shape.rowMajor_val_two, Shape.rowMajor_val_one]
    show (0 : Nat) = (j 0).val * 1 + (j 1).val
    omega)

/-! ## The whole chain -/

/-- Lanes, then rows: a `[R, L]` vector summed to one number is the double sum. -/
theorem fullSum2 {R L : Nat} (x : FVec Ideal ⟨2, ![R, L]⟩ .f32)
    (h1 : (⟨2, ![R, L]⟩ : Shape).Reduces [1] (⟨1, ![R]⟩ : Shape))
    (hc : (⟨1, ![R]⟩ : Shape).ShapeCasts ⟨2, ![R, 1]⟩)
    (h2 : (⟨2, ![R, 1]⟩ : Shape).Reduces [0] (⟨1, ![1]⟩ : Shape))
    (hc2 : (⟨1, ![1]⟩ : Shape).ShapeCasts ⟨2, ![1, 1]⟩) (j : (⟨2, ![1, 1]⟩ : Shape).Idx) :
    shapeCast ⟨2, ![1, 1]⟩
      (multiReduction .add [0] ⟨1, ![1]⟩
        (shapeCast ⟨2, ![R, 1]⟩ (multiReduction .add [1] ⟨1, ![R]⟩ x 0x00000000#32 h1 hφ hacc) hc)
        0x00000000#32 h2 hφ hacc) hc2 j
      = ∑ r : Fin R, ∑ l : Fin L, x (ix2 r l) := by
  rw [shapeCast_one_apply, reduce0_col]
  refine Finset.sum_congr rfl fun r _ => ?_
  rw [shapeCast_col_apply, reduce1_rank2]

/-- Leading axis, lanes, rows: a `[B, R, L]` vector summed to one number is the triple sum. -/
theorem fullSum3 {B R L : Nat} (x : FVec Ideal ⟨3, ![B, R, L]⟩ .f32)
    (h0 : (⟨3, ![B, R, L]⟩ : Shape).Reduces [0] (⟨2, ![R, L]⟩ : Shape))
    (h1 : (⟨2, ![R, L]⟩ : Shape).Reduces [1] (⟨1, ![R]⟩ : Shape))
    (hc : (⟨1, ![R]⟩ : Shape).ShapeCasts ⟨2, ![R, 1]⟩)
    (h2 : (⟨2, ![R, 1]⟩ : Shape).Reduces [0] (⟨1, ![1]⟩ : Shape))
    (hc2 : (⟨1, ![1]⟩ : Shape).ShapeCasts ⟨2, ![1, 1]⟩) (j : (⟨2, ![1, 1]⟩ : Shape).Idx) :
    shapeCast ⟨2, ![1, 1]⟩
      (multiReduction .add [0] ⟨1, ![1]⟩
        (shapeCast ⟨2, ![R, 1]⟩ (multiReduction .add [1] ⟨1, ![R]⟩
          (multiReduction .add [0] ⟨2, ![R, L]⟩ x 0x00000000#32 h0 hφ hacc) 0x00000000#32 h1 hφ hacc) hc)
        0x00000000#32 h2 hφ hacc) hc2 j
      = ∑ b : Fin B, ∑ r : Fin R, ∑ l : Fin L, x (ix3 b r l) := by
  rw [fullSum2]
  have e : ∀ r : Fin R, ∀ l : Fin L,
      multiReduction .add [0] ⟨2, ![R, L]⟩ x 0x00000000#32 h0 hφ hacc (ix2 r l) = ∑ b : Fin B, x (ix3 b r l) :=
    fun r l => reduce0_rank3 hφ hacc x h0 r l
  simp only [e]
  calc ∑ r : Fin R, ∑ l : Fin L, ∑ b : Fin B, x (ix3 b r l)
      = ∑ r : Fin R, ∑ b : Fin B, ∑ l : Fin L, x (ix3 b r l) := Finset.sum_congr rfl fun r _ => Finset.sum_comm
    _ = ∑ b : Fin B, ∑ r : Fin R, ∑ l : Fin L, x (ix3 b r l) := Finset.sum_comm

/-- Two leading axes, lanes, rows: a `[B, C, R, L]` vector summed to one number is the fourfold sum. -/
theorem fullSum4 {B C R L : Nat} (x : FVec Ideal ⟨4, ![B, C, R, L]⟩ .f32)
    (h00 : (⟨4, ![B, C, R, L]⟩ : Shape).Reduces [0] (⟨3, ![C, R, L]⟩ : Shape))
    (h0 : (⟨3, ![C, R, L]⟩ : Shape).Reduces [0] (⟨2, ![R, L]⟩ : Shape))
    (h1 : (⟨2, ![R, L]⟩ : Shape).Reduces [1] (⟨1, ![R]⟩ : Shape))
    (hc : (⟨1, ![R]⟩ : Shape).ShapeCasts ⟨2, ![R, 1]⟩)
    (h2 : (⟨2, ![R, 1]⟩ : Shape).Reduces [0] (⟨1, ![1]⟩ : Shape))
    (hc2 : (⟨1, ![1]⟩ : Shape).ShapeCasts ⟨2, ![1, 1]⟩) (j : (⟨2, ![1, 1]⟩ : Shape).Idx) :
    shapeCast ⟨2, ![1, 1]⟩
      (multiReduction .add [0] ⟨1, ![1]⟩
        (shapeCast ⟨2, ![R, 1]⟩ (multiReduction .add [1] ⟨1, ![R]⟩
          (multiReduction .add [0] ⟨2, ![R, L]⟩
            (multiReduction .add [0] ⟨3, ![C, R, L]⟩ x 0x00000000#32 h00 hφ hacc) 0x00000000#32 h0 hφ hacc)
          0x00000000#32 h1 hφ hacc) hc)
        0x00000000#32 h2 hφ hacc) hc2 j
      = ∑ b : Fin B, ∑ c : Fin C, ∑ r : Fin R, ∑ l : Fin L, x (ix4 b c r l) := by
  rw [fullSum3]
  have e : ∀ (c : Fin C) (r : Fin R) (l : Fin L),
      multiReduction .add [0] ⟨3, ![C, R, L]⟩ x 0x00000000#32 h00 hφ hacc (ix3 c r l) = ∑ b : Fin B, x (ix4 b c r l) :=
    fun c r l => reduce0_rank4 hφ hacc x h00 c r l
  simp only [e]
  calc ∑ c : Fin C, ∑ r : Fin R, ∑ l : Fin L, ∑ b : Fin B, x (ix4 b c r l)
      = ∑ c : Fin C, ∑ r : Fin R, ∑ b : Fin B, ∑ l : Fin L, x (ix4 b c r l) :=
        Finset.sum_congr rfl fun c _ => Finset.sum_congr rfl fun r _ => Finset.sum_comm
    _ = ∑ c : Fin C, ∑ b : Fin B, ∑ r : Fin R, ∑ l : Fin L, x (ix4 b c r l) :=
        Finset.sum_congr rfl fun c _ => Finset.sum_comm
    _ = ∑ b : Fin B, ∑ c : Fin C, ∑ r : Fin R, ∑ l : Fin L, x (ix4 b c r l) := Finset.sum_comm

end steps

end Cert.Hand
-- ==== Proof.Payload.lean ====
import proofs.«110971_j6184752906812_1_alg».proof.Proof.Body
import proofs.«110971_j6184752906812_1_alg».proof.Proof.Spec
import proofs.«110971_j6184752906812_1_alg».proof.Proof.LibFullSum
import Idealize.ShloMosaic.Lib.Pipeline.Value
import Idealize.ShloMosaic.Lib.ValueLayout
import Idealize.ShloMosaic.PureOps.Ideal.Laws

/-!
# The body's arithmetic, read at an index

The block's contribution to the accumulator is the sum over its 2048 rows and 128 lanes of
`weight · (p − t) · (p − t) · 100`. The weight of an entry is found in the four-row table: the entry's bin (the clipped
integer part of `t · 500`) is split into a row `bin / 128` and a lane `bin % 128`; each row of the table, spread over the
whole block, is permuted lane-wise by the lane index, and the row whose number equals the bin's row is kept. Read at
`(r, l)` this is the table lookup `Cert.Spec.pick` at the bin of the target there.
-/

set_option maxRecDepth 16384

noncomputable section

open Idealize.ShloMosaic Idealize.ShloMosaic.TcCoe Idealize.SL.Sem Idealize.ShloMosaic.ValueIdx
open scoped BigOperators

namespace Cert.KernelIdeal.Payload

open Cert.KernelIdeal Cert.KernelIdeal.Gen Cert.KernelIdeal.Body

variable {F : FTy → Type} [FloatOps F]

/-- A reshape to the same shape changes nothing. -/
theorem pay2_eq (x : Vec F S2048x128 .f32) : k0_pay2 x = x := shapeCast_self _ _
theorem pay3_eq (x : Vec F S2048x128 .f32) : k0_pay3 x = x := shapeCast_self _ _

/-- The bin of each target of the block. -/
theorem pay4_apply (x1 : Vec F S2048x128 .f32) (i : S2048x128.Idx) : k0_pay4 x1 i = Cert.Spec.binWord (x1 i) := by
  unfold k0_pay4
  rw [pay2_eq]
  rfl

/-- The bin's row. -/
theorem pay5_apply (x1 : Vec F S2048x128 .f32) (i : S2048x128.Idx) :
    k0_pay5 x1 i = Cert.Spec.chunkWord (k0_pay4 x1 i) := rfl

/-- The bin's lane: the bin minus 128 times its row, raised by 128 where negative. -/
theorem lane_apply (x1 : Vec F S2048x128 .f32) (i : S2048x128.Idx) :
    select (cmpi .slt (k0_pay7 (k0_pay4 x1) (k0_pay6 x1)) (broadcast S2048x128 0#32))
      (addi (k0_pay7 (k0_pay4 x1) (k0_pay6 x1)) (broadcast S2048x128 128#32)) (k0_pay7 (k0_pay4 x1) (k0_pay6 x1)) i
      = Cert.Spec.laneWord (k0_pay4 x1 i) := rfl

/-- Row `k` of the table block, loaded as a `[1, 128]` vector, read at lane `ln`. -/
theorem ld_row_apply (x2 : Vec F S4x128 .f32) (off : Fin 2 → Nat) (k : Fin 4) (hoff : off = ![k.val, 0])
    (inb : ∀ a, off a + S1x128.size a ≤ S4x128.size a) (ln : Fin 128) :
    View.ld x2 (Rect.unit off ![1, 128] inb) (ix2 (0 : Fin 1) ln) = x2 (ix2 k ln) := by
  subst hoff
  show x2 _ = x2 _
  congr 1
  funext a
  refine Fin.ext ?_
  match a with
  | ⟨0, _⟩ => show k.val + 1 * 0 = k.val; omega
  | ⟨1, _⟩ => show 0 + 1 * ln.val = ln.val; omega

/-- A `[1, 128]` row spread over the 2048 rows of the block and permuted lane-wise by an index array: at `(r, l)` it is the
    row at lane `idx (r, l) mod 128`. The index array passes through a reshape to `[2048, 128, 1]` and back. -/
theorem gather_row_apply (y : Vec F S1x128 .f32) (idx : IVec S2048x128 32) (r : Fin 2048) (l : Fin 128)
    (h1 : S1x128.ShapeCasts S128) (h2 : S128.ShapeCasts S1x128) (h3 : S1x128.ShapeCasts S1x128)
    (h4 : S1x128.Broadcasts S2048x128) (h5 : S2048x128.ShapeCasts S2048x128x1) (h6 : S2048x128x1.ShapeCasts S2048x128) :
    dynamicGather 1 (broadcastTo S2048x128 (shapeCast S1x128 (shapeCast S1x128 (shapeCast S128 y h1) h2) h3) h4)
      (shapeCast S2048x128 (shapeCast S2048x128x1 idx h5) h6) (ix2 r l)
      = y (ix2 (0 : Fin 1) ⟨(idx (ix2 r l)).toNat % 128, Nat.mod_lt _ (by decide)⟩) := by
  rw [shapeCast_shapeCast, shapeCast_self, shapeCast_shapeCast]
  unfold dynamicGather
  have e : (fun b : Fin S2048x128.rank => if b = 1 then (⟨(idx (ix2 r l)).toNat % S2048x128.size b, Nat.mod_lt _ (Fin.pos (ix2 r l b))⟩ : Fin (S2048x128.size b)) else ix2 r l b)
      = ix2 r (⟨(idx (ix2 r l)).toNat % 128, Nat.mod_lt _ (by decide)⟩ : Fin 128) := by
    funext b
    match b with
    | ⟨0, _⟩ => rfl
    | ⟨1, _⟩ => rfl
  rw [e]
  exact broadcastTo_1b_ab_apply y h4 r _

/-- One entry's contribution, from the blocks: the weight looked up in the table block at the bin of the target. -/
def contrib (x0 x1 : Vec F S2048x128 .f32) (x2 : Vec F S4x128 .f32) (r : Fin 2048) (l : Fin 128) : F .f32 :=
  Cert.Spec.term
    (Cert.Spec.pick (fun k ln => x2 (ix2 k ln)) (Scalar.ofBits .f32 0x00000000#32) (Cert.Spec.binWord (x1 (ix2 r l))))
    (x0 (ix2 r l)) (x1 (ix2 r l))

theorem accNext_apply (x0 x1 : Vec Ideal S2048x128 .f32) (x2 : Vec Ideal S4x128 .f32) (xs : Vec Ideal S1x1 .f32)
    (j : S1x1.Idx) :
    accNext (F := Ideal) x0 x1 x2 xs j = xs j + ∑ r : Fin 2048, ∑ l : Fin 128, contrib (F := Ideal) x0 x1 x2 r l := by
  unfold accNext k0_pay11
  dsimp only
  rw [shapeCast_self]
  show xs j + _ = _
  refine congrArg (xs j + ·) ?_
  refine (Cert.Hand.fullSum2 (.inl rfl) rfl _ _ _ _ _ j).trans ?_
  refine Finset.sum_congr rfl fun r _ => Finset.sum_congr rfl fun l _ => ?_
  unfold k0_pay9 k0_pay10 k0_pay8
  dsimp only
  rw [pay2_eq, pay3_eq]
  show FloatOps.mulf (FloatOps.mulf (FloatOps.mulf
        (Scalar.select _ (dynamicGather 1 _ _ (ix2 r l)) (Scalar.select _ (dynamicGather 1 _ _ (ix2 r l))
          (Scalar.select _ (dynamicGather 1 _ _ (ix2 r l)) (Scalar.select _ (dynamicGather 1 _ _ (ix2 r l)) _)))) _) _) _ = _
  rw [gather_row_apply, gather_row_apply, gather_row_apply, gather_row_apply]
  rw [ld_row_apply x2 ![3, 0] 3 rfl inb_S4x128_S1x128_3_0, ld_row_apply x2 ![2, 0] 2 rfl inb_S4x128_S1x128_2_0,
    ld_row_apply x2 ![1, 0] 1 rfl inb_S4x128_S1x128_1_0, ld_row_apply x2 ![0, 0] 0 rfl inb_S4x128_S1x128_0_0]
  unfold contrib Cert.Spec.term Cert.Spec.pick
  rw [← pay4_apply]
  rfl

end Cert.KernelIdeal.Payload

end
-- ==== Proof.Blocks.lean ====
import proofs.«110971_j6184752906812_1_alg».proof.Proof.Gen.KernelIdeal.Frame
import proofs.«110971_j6184752906812_1_alg».proof.Proof.Spec
import Idealize.ShloMosaic.Lib.Pipeline.Value
import Idealize.ShloMosaic.Lib.KernelVsHost
import Idealize.ShloMosaic.Lib.StableHlo.Run

/-!
# The blocks the kernel reads, as entries of the arguments

Before the region the host reshapes the prediction and the target, `2^24` entries each, to `131072 × 128`, and builds the
table: the 501 weights `w` replaced by `1 / w` (by `1` where `w < 1e-5`), extended by `1` to 512 entries, reshaped to
`4 × 128`. At grid point `t` (of `2 × 32 = 64`) the first two windows hold rows `2048 t … 2048 t + 2047` of the reshaped
arrays, the third the whole table.

A reshape keeps the row-major position, so row `R`, lane `l` of a `131072 × 128` array is position `128 R + l` of the flat
one, and row `k`, lane `l` of the table is entry `128 k + l` of the extended list. Hence entry `(r, l)` of the first
window's block at point `t` is the prediction at `(2048 t + r) · 128 + l`, of the second's the target there, and entry
`(k, l)` of the third's is the inverse weight of bin `128 k + l` when that is below 501 and `1` otherwise.
-/

noncomputable section

namespace Cert.KernelIdeal.Blocks

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-! ## The arrays the region finds -/

/-- The first window's array is the prediction reshaped to `131072 × 128`. -/
theorem V_v6 (c : Dev nD) : (V m c main_v6 : S131072x128.Idx → Elt F .f32)
    = shapeCast S131072x128 (m ((c : Thread nD τ).loc main_arg0)) Facts₀.shapeCasts_S16777216_S131072x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The second window's array is the target reshaped to `131072 × 128`. -/
theorem V_v7 (c : Dev nD) : (V m c main_v7 : S131072x128.Idx → Elt F .f32)
    = shapeCast S131072x128 (m ((c : Thread nD τ).loc main_arg1)) Facts₀.shapeCasts_S16777216_S131072x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The third window's array is the table: the inverse weights, extended by `1` to 512 entries, as `4 × 128`. -/
theorem V_v8 (c : Dev nD) : (V m c main_v8 : S4x128.Idx → Elt F .f32)
    = shapeCast S4x128
        (pad S512 ![0] ![11] ![0]
          (select
            (cmpf .olt (m ((c : Thread nD τ).loc main_arg2) : S501.Idx → F .f32)
              (broadcastInDim S501 ![] Facts₀.bcast_S_S501 (constant (F := F) S_ .f32 0x3727C5AC#32)))
            (broadcastInDim S501 ![] Facts₀.bcast_S_S501 (constant (F := F) S_ .f32 0x3F800000#32))
            (Host.divf (broadcastInDim S501 ![] Facts₀.bcast_S_S501 (constant (F := F) S_ .f32 0x3F800000#32))
              (m ((c : Thread nD τ).loc main_arg2) : S501.Idx → F .f32)))
          (constant (F := F) S_ .f32 0x3F800000#32) Facts₀.pads_S501_S512_0110 Facts₀.h_S_)
        Facts₀.shapeCasts_S512_S4x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-! ## Reading the reshaped and padded arrays at a position -/

section Reads
variable {α : Type}

/-- Row `R`, lane `l` of the `131072 × 128` reshape is position `128 R + l`. -/
theorem reshape_read (x : S16777216.Idx → α) (h : S16777216.ShapeCasts S131072x128) (R : Fin 131072) (l : Fin 128)
    (hn : R.val * 128 + l.val < 16777216) :
    shapeCast S131072x128 x h (ix2 R l) = x (ix1 ⟨R.val * 128 + l.val, hn⟩) :=
  shapeCast_apply x h _ _ (by
    rw [Shape.rowMajor_val_two, Shape.rowMajor_val_one]
    show R.val * 128 + l.val = R.val * 128 + l.val
    rfl)

/-- Row `k`, lane `l` of the `4 × 128` reshape is entry `128 k + l`. -/
theorem table_read (x : S512.Idx → α) (h : S512.ShapeCasts S4x128) (k : Fin 4) (l : Fin 128)
    (hn : k.val * 128 + l.val < 512) :
    shapeCast S4x128 x h (ix2 k l) = x (ix1 ⟨k.val * 128 + l.val, hn⟩) :=
  shapeCast_apply x h _ _ (by
    rw [Shape.rowMajor_val_two, Shape.rowMajor_val_one]
    show k.val * 128 + l.val = k.val * 128 + l.val
    rfl)

/-- Below 501 the extended list is the list. -/
theorem pad_read_in (x : S501.Idx → α) (v : S_.Idx → α) (hp : S501.Pads ![0] ![11] ![0] S512) (hu : 0 < S_.numel)
    (n : Fin 512) (hn : n.val < 501) :
    pad S512 ![0] ![11] ![0] x v hp hu (ix1 n) = x (ix1 ⟨n.val, hn⟩) :=
  pad_apply_of_inside _ _ _ x v hp hu _ (ix1 (⟨n.val, hn⟩ : Fin 501)) (by
    intro a
    obtain rfl : a = 0 := Subsingleton.elim _ _
    show n.val = 0 + n.val * (0 + 1)
    omega)

/-- From 501 on the extended list is the padding value. -/
theorem pad_read_out (x : S501.Idx → α) (v : S_.Idx → α) (hp : S501.Pads ![0] ![11] ![0] S512) (hu : 0 < S_.numel)
    (n : Fin 512) (hn : ¬ n.val < 501) :
    pad S512 ![0] ![11] ![0] x v hp hu (ix1 n) = v (Shape.Idx.first hu) :=
  pad_apply_of_not_inside _ _ _ x v hp hu _ (0 : Fin 1) (by
    show ¬(0 ≤ n.val ∧ (n.val - 0) % (0 + 1) = 0 ∧ (n.val - 0) / (0 + 1) < 501)
    omega)

end Reads

/-! ## The blocks -/

/-- The block index of the first two windows at point `t` is `(t, 0)`: `32 · (t / 32) + t % 32 = t`, checked point by point;
    the third window's is `(0, 0)`. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)

/-- The grid has 64 points. -/
theorem point_lt (t : Fin cfg0.N) : t.val < 64 := lt_of_lt_of_eq t.isLt N_0

theorem row_lt (t : Fin cfg0.N) (r : Fin 2048) : t.val * 2048 + r.val < 131072 := by
  have := point_lt t; have := r.isLt; omega

theorem flat_lt (t : Fin cfg0.N) (r : Fin 2048) (l : Fin 128) : (t.val * 2048 + r.val) * 128 + l.val < 16777216 := by
  have := point_lt t; have := r.isLt; have := l.isLt; omega

/-- Entry `(r, l)` of the block at point `t` is entry `(2048 t + r, l)` of the array: block index times block size plus
    the coordinate inside the block, on each axis. -/
theorem iblk0_V (c : Dev nD) (t : Fin cfg0.N) (r : Fin 2048) (l : Fin 128) :
    (iblk m c 0 t : Vec F S2048x128 .f32) (ix2 r l)
      = (V m c main_v6 : S131072x128.Idx → Elt F .f32) (ix2 ⟨t.val * 2048 + r.val, row_lt t r⟩ l) := by
  unfold iblk
  rw [View.read_apply]
  show V m c main_v6 _ = V m c main_v6 _
  congr 1
  funext a
  apply Fin.ext
  match a with
  | ⟨0, _⟩ => show win0_0.index t 0 * 2048 + 1 * r.val = t.val * 2048 + r.val; rw [(idx0_0 t).1]; omega
  | ⟨1, _⟩ => show win0_0.index t 1 * 128 + 1 * l.val = l.val; rw [(idx0_0 t).2]; omega

theorem iblk1_V (c : Dev nD) (t : Fin cfg0.N) (r : Fin 2048) (l : Fin 128) :
    (iblk m c 1 t : Vec F S2048x128 .f32) (ix2 r l)
      = (V m c main_v7 : S131072x128.Idx → Elt F .f32) (ix2 ⟨t.val * 2048 + r.val, row_lt t r⟩ l) := by
  unfold iblk
  rw [View.read_apply]
  show V m c main_v7 _ = V m c main_v7 _
  congr 1
  funext a
  apply Fin.ext
  match a with
  | ⟨0, _⟩ => show win0_1.index t 0 * 2048 + 1 * r.val = t.val * 2048 + r.val; rw [(idx0_1 t).1]; omega
  | ⟨1, _⟩ => show win0_1.index t 1 * 128 + 1 * l.val = l.val; rw [(idx0_1 t).2]; omega

/-- The table's one block is the table. -/
theorem iblk2_V (c : Dev nD) (t : Fin cfg0.N) (k : Fin 4) (l : Fin 128) :
    (iblk m c 2 t : Vec F S4x128 .f32) (ix2 k l) = (V m c main_v8 : S4x128.Idx → Elt F .f32) (ix2 k l) := by
  unfold iblk
  rw [View.read_apply]
  show V m c main_v8 _ = V m c main_v8 _
  congr 1
  funext a
  apply Fin.ext
  match a with
  | ⟨0, _⟩ => show win0_2.index t 0 * 4 + 1 * k.val = k.val; rw [(idx0_2 t).1]; omega
  | ⟨1, _⟩ => show win0_2.index t 1 * 128 + 1 * l.val = l.val; rw [(idx0_2 t).2]; omega

/-- Window 0's block at point `t`, row `r`, lane `l`: the prediction at position `(2048 t + r) · 128 + l`. -/
theorem iblk0_apply (c : Dev nD) (t : Fin cfg0.N) (r : Fin 2048) (l : Fin 128) :
    (iblk m c 0 t : Vec F S2048x128 .f32) (ix2 r l)
      = m ((c : Thread nD τ).loc main_arg0) (ix1 ⟨(t.val * 2048 + r.val) * 128 + l.val, flat_lt t r l⟩) := by
  rw [iblk0_V, V_v6]
  exact reshape_read _ _ ⟨t.val * 2048 + r.val, row_lt t r⟩ l (flat_lt t r l)

/-- Window 1's block at point `t`, row `r`, lane `l`: the target at position `(2048 t + r) · 128 + l`. -/
theorem iblk1_apply (c : Dev nD) (t : Fin cfg0.N) (r : Fin 2048) (l : Fin 128) :
    (iblk m c 1 t : Vec F S2048x128 .f32) (ix2 r l)
      = m ((c : Thread nD τ).loc main_arg1) (ix1 ⟨(t.val * 2048 + r.val) * 128 + l.val, flat_lt t r l⟩) := by
  rw [iblk1_V, V_v7]
  exact reshape_read _ _ ⟨t.val * 2048 + r.val, row_lt t r⟩ l (flat_lt t r l)

/-- Window 2's block at every point is the whole table: entry `128 k + l` is the inverse weight of bin `128 k + l`
    below 501 and `1` from 501 on. -/
theorem iblk2_apply (c : Dev nD) (t : Fin cfg0.N) (k : Fin 4) (l : Fin 128) :
    (iblk m c 2 t : Vec F S4x128 .f32) (ix2 k l)
      = if h : k.val * 128 + l.val < 501 then Cert.Spec.invW (m ((c : Thread nD τ).loc main_arg2) (ix1 ⟨k.val * 128 + l.val, h⟩))
        else FloatOps.ofBits .f32 0x3F800000#32 := by
  have hn : k.val * 128 + l.val < 512 := by have := k.isLt; have := l.isLt; omega
  rw [iblk2_V, V_v8, table_read _ _ k l hn]
  by_cases h : k.val * 128 + l.val < 501
  · rw [dif_pos h, pad_read_in _ _ _ _ ⟨k.val * 128 + l.val, hn⟩ h]
    rfl
  · rw [dif_neg h, pad_read_out _ _ _ _ ⟨k.val * 128 + l.val, hn⟩ h]
    rfl

end Cert.KernelIdeal.Blocks

end
-- ==== Proof.Acc.lean ====
import proofs.«110971_j6184752906812_1_alg».proof.Proof.Body
import proofs.«110971_j6184752906812_1_alg».proof.Proof.Payload
import proofs.«110971_j6184752906812_1_alg».proof.Proof.Blocks
import proofs.«110971_j6184752906812_1_alg».proof.Proof.Spec
import Idealize.ShloMosaic.Lib.Pipeline.Value
import Idealize.ShloMosaic.PureOps.Ideal.Laws

/-!
# The accumulator along the grid

The 64 grid points run in order; points `32 p … 32 p + 31` belong to half `p`. At the first point of a half the
accumulator restarts from zero, at every other point it continues from what the point before left. So after point
`32 p + j` it holds the sum of the block sums of points `32 p, …, 32 p + j` (addition of extended reals is associative
and `0` is neutral, nothing else is used), and the output block, a copy of the accumulator, holds the same number.
-/

set_option maxRecDepth 16384

noncomputable section

open Idealize.ShloMosaic Idealize.ShloMosaic.TcCoe Idealize.SL.Sem Idealize.ShloMosaic.ValueIdx
open scoped BigOperators

namespace Cert.KernelIdeal.Acc

open Cert.KernelIdeal Cert.KernelIdeal.Gen Cert.KernelIdeal.Body Cert.KernelIdeal.Payload

variable (m : (ℓ : Loc nD τ sig) → Buf (Elt Ideal) ℓ)

/-- The three input blocks at a grid point, at their literal shapes. -/
abbrev blk0 (c : Dev nD) (t : Fin cfg0.N) : Vec Ideal S2048x128 .f32 := iblk m c 0 t
abbrev blk1 (c : Dev nD) (t : Fin cfg0.N) : Vec Ideal S2048x128 .f32 := iblk m c 1 t
abbrev blk2 (c : Dev nD) (t : Fin cfg0.N) : Vec Ideal S4x128 .f32 := iblk m c 2 t

/-- The sum of the contributions of the block at point `n` (zero past the grid). -/
def blockSum (c : Dev nD) (n : ℕ) : EReal :=
  if h : n < cfg0.N then
    ∑ r : Fin 2048, ∑ l : Fin 128, contrib (F := Ideal) (blk0 m c ⟨n, h⟩) (blk1 m c ⟨n, h⟩) (blk2 m c ⟨n, h⟩) r l
  else 0

/-- The accumulator after point `n`: restarted at the multiples of 32, continued elsewhere. -/
def acc (c : Dev nD) : ℕ → EReal
  | 0 => blockSum m c 0
  | n + 1 => if (n + 1) % 32 = 0 then blockSum m c (n + 1) else acc c n + blockSum m c (n + 1)

theorem acc_succ (c : Dev nD) (n : ℕ) :
    acc m c (n + 1) = if (n + 1) % 32 = 0 then blockSum m c (n + 1) else acc m c n + blockSum m c (n + 1) := rfl

/-- The block stored at a restart is zero. -/
theorem pay1_apply (j : S1x1.Idx) : k0_pay1 (F := Ideal) j = 0 := by
  unfold k0_pay1
  rw [shapeCast_self]
  exact Ideal.ofBits_zero_f32

/-- The output block is the one-element accumulator reshaped: every entry is that element. -/
theorem pay12_apply {F : FTy → Type} [FloatOps F] (v : Vec F S1x1 .f32) (i : S1x1x1.Idx) :
    k0_pay12 v i = v (ix2 (0 : Fin 1) (0 : Fin 1)) := by
  unfold k0_pay12
  refine shapeCast_apply v _ i _ ?_
  have h1 := (S1x1.rowMajor (ix2 (0 : Fin 1) (0 : Fin 1))).isLt
  have h2 := (S1x1x1.rowMajor i).isLt
  have e1 : S1x1.numel = 1 := by decide
  have e2 : S1x1x1.numel = 1 := by decide
  omega

/-- At a restart point the accumulator ends at the block's sum. -/
theorem step_A (c : Dev nD) (t : Fin cfg0.N) (h0 : t.val % 32 = 0) (j : S1x1.Idx) :
    (outsAt0 m c t.val t.isLt).2 j = blockSum m c t.val := by
  rw [outsAt0_A m c t h0]
  dsimp only
  refine (congrFun (sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)) j).trans ?_
  refine (accNext_apply (blk0 m c t) (blk1 m c t) (blk2 m c t) (k0_pay1 (F := Ideal)) j).trans ?_
  rw [pay1_apply, zero_add]
  unfold blockSum
  rw [dif_pos t.isLt]

/-- At any other point it ends at what the point before left plus the block's sum. -/
theorem step_B (c : Dev nD) (t : Fin cfg0.N) (h0 : ¬t.val % 32 = 0) (j : S1x1.Idx) :
    (outsAt0 m c t.val t.isLt).2 j
      = (outsAt0 m c (t.val - 1) (Nat.lt_of_le_of_lt (Nat.sub_le _ _) t.isLt)).2 j + blockSum m c t.val := by
  rw [outsAt0_B m c t h0]
  dsimp only
  refine (congrFun (sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
    (outsAt0 m c (t.val - 1) (Nat.lt_of_le_of_lt (Nat.sub_le _ _) t.isLt)).2) j).trans ?_
  refine (accNext_apply (blk0 m c t) (blk1 m c t) (blk2 m c t) _ j).trans ?_
  unfold blockSum
  rw [dif_pos t.isLt]

/-- The output block's entries are the accumulator's element. -/
theorem fst_eq_snd (c : Dev nD) (t : Fin cfg0.N) (i : S1x1x1.Idx) :
    (outsAt0 m c t.val t.isLt).1 i = (outsAt0 m c t.val t.isLt).2 (ix2 (0 : Fin 1) (0 : Fin 1)) := by
  by_cases h0 : t.val % 32 = 0
  · rw [outsAt0_A m c t h0]
    dsimp only
    refine (congrFun (out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)) i).trans ?_
    refine (pay12_apply _ i).trans ?_
    exact (congrFun (sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)) _).symm
  · rw [outsAt0_B m c t h0]
    dsimp only
    refine (congrFun (out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2) i).trans ?_
    refine (pay12_apply _ i).trans ?_
    exact (congrFun (sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2) _).symm

/-- The accumulator the run leaves after point `n` is `acc`: by induction on the point. -/
theorem outsAt_snd (c : Dev nD) : ∀ (n : ℕ) (h : n < cfg0.N) (j : S1x1.Idx), (outsAt0 m c n h).2 j = acc m c n
  | 0, h, j => step_A m c ⟨0, h⟩ rfl j
  | n + 1, h, j => by
    rw [acc_succ]
    by_cases h0 : (n + 1) % 32 = 0
    · rw [if_pos h0]
      exact step_A m c ⟨n + 1, h⟩ h0 j
    · rw [if_neg h0]
      refine (step_B m c ⟨n + 1, h⟩ h0 j).trans ?_
      show (outsAt0 m c n _).2 j + _ = _
      rw [outsAt_snd c n _ j]

/-- After point `32 p + j` the accumulator is the sum of the block sums of points `32 p … 32 p + j`. -/
theorem acc_closed (c : Dev nD) (p : ℕ) : ∀ j : ℕ, j < 32 →
    acc m c (32 * p + j) = ∑ k ∈ Finset.range (j + 1), blockSum m c (32 * p + k)
  | 0, _ => by
    rw [Finset.sum_range_one]
    cases p with
    | zero => rfl
    | succ q =>
      have e : 32 * (q + 1) + 0 = (32 * q + 31) + 1 := by omega
      rw [e, acc_succ, if_pos (by omega)]
  | j + 1, hj => by
    show acc m c ((32 * p + j) + 1) = _
    rw [acc_succ, if_neg (by omega), acc_closed c p j (by omega), Finset.sum_range_succ (n := j + 1)]
    rfl

/-- After the last point of half `p`: the sum over the half's 32 blocks. -/
theorem acc_last (c : Dev nD) (p : ℕ) : acc m c (32 * p + 31) = ∑ k : Fin 32, blockSum m c (32 * p + k.val) := by
  rw [acc_closed m c p 31 (by omega)]
  exact Finset.sum_range (fun k => blockSum m c (32 * p + k))

end Cert.KernelIdeal.Acc

end
-- ==== Proof.LibSumBlocks.lean ====
import Mathlib.Algebra.BigOperators.Fin
import Mathlib.Algebra.BigOperators.Group.Finset.Defs
import Mathlib.Algebra.BigOperators.Group.List.Basic
import Mathlib.Data.Fintype.BigOperators
import Idealize.ShloMosaic.Lib.ValueIdx

/-!
# Finite sums taken block by block

Pure bookkeeping about finite sums in an additive commutative monoid `M` (only commutativity and associativity of `+`
are used, so every statement holds in the extended reals as well).

* `sum_idx3`, `sum_idx4`: a sum over the index set of a rank-3 (rank-4) shape is the iterated sum over its coordinates,
  because the index set is in bijection with the product of the coordinate ranges (`idxEquiv3`, `idxEquiv4`).
* `sum_rows_blocks`: the 1024 numbers `0 ≤ row < 1024` are written uniquely as `512·c + 32·s + 8·k + r` with
  `c < 2`, `s < 16`, `k < 4`, `r < 8` (mixed-radix digits), so a sum over the rows is the fourfold sum over the digits.
* `sum_rows_pairs`: likewise `row = 16·b + ch` with `b = row / 16 < 64` and `ch = row % 16 < 16`.
* `foldl_add_eq_sum`: a left fold over `0, 1, …, n-1` that adds `g k` at step `k` ends at the start value plus `∑ k, g k`.
-/

open scoped BigOperators
open Idealize.ShloMosaic Idealize.ShloMosaic.ValueIdx

namespace Cert.Hand

/-! ## Sums over the index set of a shape -/

/-- A rank-3 index set is the product of its three coordinate ranges: an index goes to its coordinates,
    a triple of coordinates to the index `ix3` built from them. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates:
    `∑ i, f i = ∑ a, ∑ b, ∑ c, f (a, b, c)`. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges: an index goes to its coordinates,
    a quadruple of coordinates to the index `ix4` built from them. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates:
    `∑ i, f i = ∑ a, ∑ b, ∑ c, ∑ d, f (a, b, c, d)`. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## 1024 rows in blocks -/

/-- Mixed-radix digits: `(c, s, k, r)` with `c < 2`, `s < 16`, `k < 4`, `r < 8` corresponds to the row
    `512·c + 32·s + 8·k + r < 1024`; the digits of a row are `row / 512`, `row % 512 / 32`, `row % 32 / 8`, `row % 8`. -/
def rowsBlocksEquiv : Fin 2 × Fin 16 × Fin 4 × Fin 8 ≃ Fin 1024 where
  toFun p := ⟨512 * p.1.val + 32 * p.2.1.val + 8 * p.2.2.1.val + p.2.2.2.val, by
    have := p.1.isLt; have := p.2.1.isLt; have := p.2.2.1.isLt; have := p.2.2.2.isLt; omega⟩
  invFun row := (⟨row.val / 512, by have := row.isLt; omega⟩, ⟨row.val % 512 / 32, by omega⟩,
    ⟨row.val % 32 / 8, by omega⟩, ⟨row.val % 8, by omega⟩)
  left_inv p := by
    obtain ⟨⟨c, hc⟩, ⟨s, hs⟩, ⟨k, hk⟩, ⟨r, hr⟩⟩ := p
    refine Prod.ext (Fin.ext ?_) (Prod.ext (Fin.ext ?_) (Prod.ext (Fin.ext ?_) (Fin.ext ?_))) <;>
      simp only <;> omega
  right_inv row := by
    obtain ⟨v, hv⟩ := row
    refine Fin.ext ?_
    simp only
    omega

/-- 1024 rows, taken as 2 halves of 16 blocks of 4 chunks of 8 rows: row = 512·c + 32·s + 8·k + r. -/
theorem sum_rows_blocks {M : Type*} [AddCommMonoid M] (f : Fin 1024 → M) :
    ∑ c : Fin 2, ∑ s : Fin 16, ∑ k : Fin 4, ∑ r : Fin 8,
      f ⟨512 * c.val + 32 * s.val + 8 * k.val + r.val, by omega⟩ = ∑ row : Fin 1024, f row := by
  rw [← Equiv.sum_comp rowsBlocksEquiv f, Fintype.sum_prod_type]
  refine Finset.sum_congr rfl fun c _ => ?_
  rw [Fintype.sum_prod_type]
  refine Finset.sum_congr rfl fun s _ => ?_
  rw [Fintype.sum_prod_type]
  rfl

/-- Quotient and remainder by 16: `(b, ch)` with `b < 64`, `ch < 16` corresponds to the row `16·b + ch < 1024`;
    conversely `b = row / 16` and `ch = row % 16`. -/
def rowsPairsEquiv : Fin 64 × Fin 16 ≃ Fin 1024 where
  toFun p := ⟨16 * p.1.val + p.2.val, by have := p.1.isLt; have := p.2.isLt; omega⟩
  invFun row := (⟨row.val / 16, by have := row.isLt; omega⟩, ⟨row.val % 16, by omega⟩)
  left_inv p := by
    obtain ⟨⟨b, hb⟩, ⟨ch, hch⟩⟩ := p
    refine Prod.ext (Fin.ext ?_) (Fin.ext ?_) <;> simp only <;> omega
  right_inv row := by
    obtain ⟨v, hv⟩ := row
    refine Fin.ext ?_
    simp only
    omega

/-- 1024 rows as 64 × 16 pairs in row-major order: row = 16·b + ch. -/
theorem sum_rows_pairs {M : Type*} [AddCommMonoid M] (g : Fin 64 → Fin 16 → M) :
    ∑ row : Fin 1024, g ⟨row.val / 16, by omega⟩ ⟨row.val % 16, by omega⟩ = ∑ b : Fin 64, ∑ ch : Fin 16, g b ch := by
  exact (Equiv.sum_comp rowsPairsEquiv.symm (fun p : Fin 64 × Fin 16 => g p.1 p.2)).trans
    (Fintype.sum_prod_type _)

/-! ## A left fold that accumulates a sum -/

/-- Over any list: folding `acc ↦ acc + g k` from `a` gives `a` plus the sum of the `g k` along the list. -/
theorem foldl_add_eq_add_sum_map {M : Type*} [AddCommMonoid M] {α : Type*} (g : α → M) (l : List α) (a : M) :
    l.foldl (fun acc k => acc + g k) a = a + (l.map g).sum := by
  induction l generalizing a with
  | nil => simp
  | cons x xs ih => rw [List.foldl_cons, ih, List.map_cons, List.sum_cons, add_assoc]

/-- A left fold that adds `g k` at step `k` is the start plus the sum. -/
theorem foldl_add_eq_sum {M : Type*} [AddCommMonoid M] (n : Nat) (g : Fin n → M) (a : M) :
    (List.finRange n).foldl (fun acc k => acc + g k) a = a + ∑ k : Fin n, g k := by
  rw [foldl_add_eq_add_sum_map, Fin.sum_univ_def]

end Cert.Hand
-- ==== Proof.Final.lean ====
import proofs.«110971_j6184752906812_1_alg».proof.Proof.Acc
import proofs.«110971_j6184752906812_1_alg».proof.Proof.LibSumBlocks
import Idealize.ShloMosaic.Lib.Pipeline.Value
import Idealize.ShloMosaic.Lib.StableHlo.Run
import Idealize.ShloMosaic.PureOps.Ideal.Laws

/-!
# The kernel program's result

The output array has one entry per half of the grid. Half `p`'s entry is written back after the half's last point,
`32 p + 31`, with the accumulator there: the sum of the half's 32 block sums. After the region the host adds the two
entries to zero and divides by `2^24`. Every block entry is one position of the flat arrays (block `t`, row `r`, lane `l`
is position `(2048 t + r) · 128 + l`), its weight the inverse weight of the target's bin (a bin is at most 500, so its
row `bin / 128` and lane `bin % 128` name entry `bin` of the table, inside the 501 genuine entries), so the two entries
together are the sum over all `2^24` positions of `Cert.Spec.elt`.
-/

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen

variable (m : (ℓ : Loc nD τ sig) → Buf (Elt Ideal) ℓ) (ρ : Dev nD → PrngReg)

/-- The output array after the run: entry `p` is the accumulator after the last point of half `p`. -/
abbrev partials (c : Dev nD) : Buf (Elt Ideal) ((c : Thread nD τ).loc main_v9) :=
  fun i : S2x1x1.Idx => Acc.acc m c (32 * (i 0).val + 31)

/-- The output window's block index at point `t` is `(t / 32, 0, 0)`, and no block is cut: checked point by point. -/
theorem idx3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)
theorem xsize3 : ∀ t : Fin cfg0.N, win0_3.xsize (grid0.coords t) 0 = 1 ∧ win0_3.xsize (grid0.coords t) 1 = 1
    ∧ win0_3.xsize (grid0.coords t) 2 = 1 :=
  (by decide +kernel : ∀ t : Fin grid0.N, win0_3.xsize (grid0.coords t) 0 = 1 ∧ win0_3.xsize (grid0.coords t) 1 = 1
    ∧ win0_3.xsize (grid0.coords t) 2 = 1)

/-- What a write-back point writes is the block of `partials` it covers: at the last point of a half the accumulator
    is that half's entry. -/
theorem flushed_eq (c : Dev nD) (t : Fin cfg0.N) (hf : (cfg0.win 3).flush t = true) :
    (dats m 0 c).flushed 3 t = ((cfg0.win 3).blk t).view.read (Elt Ideal) (partials m c) := by
  have h31 : t.val % 32 = 31 := (flush0_3 t).mp hf
  show (cfg0.win 3).cut (grid0.coords t) ((dats m 0 c).after 3 t) = _
  rw [after0_3]
  funext y
  show (outsAt0 m c t.val t.isLt).1 _ = _
  rw [Acc.fst_eq_snd m c t _, Acc.outsAt_snd m c t.val t.isLt, View.read_apply]
  show Acc.acc m c t.val = Acc.acc m c (32 * (win0_3.index t 0 * 1 + 1 * (y (0 : Fin 3)).val) + 31)
  have hy : (y (0 : Fin 3)).val < win0_3.xsize (grid0.coords t) 0 := (y (0 : Fin 3)).isLt
  rw [(xsize3 t).1] at hy
  rw [(idx3 t).1]
  congr 1
  omega

/-- Every entry of the output array lies in the block written back after the last point of its half. -/
theorem cover (c : Dev nD) (i : S2x1x1.Idx) :
    ∃ t : Fin cfg0.N, (cfg0.win 3).flush t = true ∧ i ∈ ((cfg0.win 3).blk t).view.set := by
  have hN : cfg0.N = 64 := N_0
  have h0 : (i 0 : Nat) < 2 := (i 0).isLt
  have h1 : (i 1 : Nat) < 1 := (i 1).isLt
  have h2 : (i 2 : Nat) < 1 := (i 2).isLt
  let t : Fin cfg0.N := ⟨32 * (i 0).val + 31, by omega⟩
  refine ⟨t, (flush0_3 t).mpr (by show (32 * (i 0).val + 31) % 32 = 31; omega), ?_⟩
  show i ∈ ((View.whole main_v9).slice (win0_3.rect t)).set
  rw [View.set_slice_whole, Rect.mem_set_unit]
  intro a
  have ht : t.val = 32 * (i 0).val + 31 := rfl
  match a with
  | ⟨0, _⟩ =>
    show win0_3.index t 0 * win0_3.size 0 ≤ (i 0 : Nat) ∧ (i 0 : Nat) < win0_3.index t 0 * win0_3.size 0 + win0_3.xsize (grid0.coords t) 0
    rw [(idx3 t).1, (xsize3 t).1, show win0_3.size 0 = 1 from rfl]
    omega
  | ⟨1, _⟩ =>
    show win0_3.index t 1 * win0_3.size 1 ≤ (i 1 : Nat) ∧ (i 1 : Nat) < win0_3.index t 1 * win0_3.size 1 + win0_3.xsize (grid0.coords t) 1
    rw [(idx3 t).2.1, (xsize3 t).2.1]
    omega
  | ⟨2, _⟩ =>
    show win0_3.index t 2 * win0_3.size 2 ≤ (i 2 : Nat) ∧ (i 2 : Nat) < win0_3.index t 2 * win0_3.size 2 + win0_3.xsize (grid0.coords t) 2
    rw [(idx3 t).2.2, (xsize3 t).2.2]
    omega

/-- So the output array ends holding `partials`. -/
theorem final3 (c : Dev nD) : (dats m 0 c).arrAt 3 cfg0.N = partials m c :=
  (dats m 0 c).arrAt_eq_of_cover 3 (partials m c) (flushed_eq m c) (cover c)

/-- The program's result from the output array: the two entries added to zero, divided by `2^24`. -/
abbrev result (c : Dev nD) : Buf (Elt Ideal) ((c : Thread nD τ).loc main_v11) :=
  (Host.divf (F := Ideal)
    (Host.reduceAdd (F := Ideal) (partials m c : S2x1x1.Idx → Ideal .f32) (constant (F := Ideal) S_ .f32 0x00000000#32)
      reducesTo_S2x1x1_S_d0_1_2 h_S_)
    (constant (F := Ideal) S_ .f32 0x4B800000#32) : S_.Idx → Ideal .f32)

/-- The host operations after the region compute it from the output array. -/
theorem tail_v11 (c : Dev nD) :
    Pipeline.afterTail₀ cfgs (dats m) 0 (V0 m) [hostOps1] c main_v11 = result m c := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v9)
      = partials m c :=
    (Pipeline.withArrays_arr spec0 launch0.win.arr_inj c _ _ 3).trans (final3 m c)
  rw [e]

/-- The run, read: the result buffer ends at `result`, the arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_v11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The result as a sum over all positions -/

/-- The table block's lookup at a target's bin is the inverse weight of that bin: the bin is at most 500, so row
    `bin / 128`, lane `bin % 128` is entry `bin`, one of the 501 genuine entries. -/
theorem weight_eq (tab : Vec Ideal S4x128 .f32) (W : Cert.Spec.SW.Idx → Ideal .f32) (z : Ideal .f32)
    (htab : ∀ (k : Fin 4) (l : Fin 128), tab (ix2 k l)
      = if h : k.val * 128 + l.val < 501 then Cert.Spec.invW (W (ix1 ⟨k.val * 128 + l.val, h⟩))
        else FloatOps.ofBits .f32 0x3F800000#32)
    (tn : Ideal .f32) :
    Cert.Spec.pick (fun k ln => tab (ix2 k ln)) z (Cert.Spec.binWord tn) = Cert.Spec.invW (W (ix1 (Cert.Spec.binIdx tn))) := by
  have hb := Cert.Spec.binWord_le tn
  rw [Cert.Spec.pick_eq _ _ _ hb, htab]
  rw [dif_pos (by show (Cert.Spec.binWord tn).toNat / 128 * 128 + (Cert.Spec.binWord tn).toNat % 128 < 501; omega)]
  exact congrArg (fun n => Cert.Spec.invW (W (ix1 n)))
    (Fin.ext (by show (Cert.Spec.binWord tn).toNat / 128 * 128 + (Cert.Spec.binWord tn).toNat % 128 = (Cert.Spec.binWord tn).toNat; omega))

/-- Entry `(r, l)` of block `32 p + k` contributes what position `pos p k r l` of the flat arrays contributes. -/
theorem contrib_eq (c : Dev nD) (t : Fin cfg0.N) (p : Fin 2) (k : Fin 32) (ht : t.val = 32 * p.val + k.val)
    (r : Fin 2048) (l : Fin 128) :
    Payload.contrib (F := Ideal) (Acc.blk0 m c t) (Acc.blk1 m c t) (Acc.blk2 m c t) r l
      = Cert.Spec.elt (F := Ideal) (m ((c : Thread nD τ).loc main_arg0)) (m ((c : Thread nD τ).loc main_arg1))
          (m ((c : Thread nD τ).loc main_arg2)) (Cert.Spec.pos p k r l) := by
  have hpos : (⟨(t.val * 2048 + r.val) * 128 + l.val, Blocks.flat_lt t r l⟩ : Fin 16777216) = Cert.Spec.pos p k r l :=
    Fin.ext (by show (t.val * 2048 + r.val) * 128 + l.val = ((32 * p.val + k.val) * 2048 + r.val) * 128 + l.val; rw [ht])
  have e0 : Acc.blk0 m c t (ix2 r l) = m ((c : Thread nD τ).loc main_arg0) (ix1 (Cert.Spec.pos p k r l)) :=
    (Blocks.iblk0_apply m c t r l).trans (by rw [hpos])
  have e1 : Acc.blk1 m c t (ix2 r l) = m ((c : Thread nD τ).loc main_arg1) (ix1 (Cert.Spec.pos p k r l)) :=
    (Blocks.iblk1_apply m c t r l).trans (by rw [hpos])
  unfold Payload.contrib Cert.Spec.elt
  rw [e0, e1, weight_eq (Acc.blk2 m c t) (m ((c : Thread nD τ).loc main_arg2)) _ (Blocks.iblk2_apply m c t)]

/-- The result: zero plus the sum of all positions' contributions, divided by `2^24`. -/
theorem result_eq (c : Dev nD) (i : S_.Idx) :
    result m c i = FloatOps.hostDivf
      (Ideal.ofBits .f32 0x00000000#32 + ∑ n : Fin 16777216, Cert.Spec.elt (F := Ideal) (m ((c : Thread nD τ).loc main_arg0))
        (m ((c : Thread nD τ).loc main_arg1)) (m ((c : Thread nD τ).loc main_arg2)) n)
      (FloatOps.ofBits .f32 0x4B800000#32) := by
  show FloatOps.hostDivf (Host.reduceAdd (F := Ideal) (partials m c : S2x1x1.Idx → Ideal .f32)
    (constant (F := Ideal) S_ .f32 0x00000000#32) reducesTo_S2x1x1_S_d0_1_2 h_S_ i) (FloatOps.ofBits .f32 0x4B800000#32) = _
  refine congrArg (fun x : Ideal .f32 => FloatOps.hostDivf x (FloatOps.ofBits .f32 0x4B800000#32)) ?_
  simp only [Host.reduceAdd, Ideal.hostReduceAdd_def]
  refine (Ideal.hostReduceAdd_total reducesTo_S2x1x1_S_d0_1_2 (fun b => b.elim0) _ _ i).trans ?_
  show Ideal.ofBits .f32 0x00000000#32 + _ = _
  refine congrArg (Ideal.ofBits .f32 0x00000000#32 + ·) ?_
  rw [Cert.Hand.sum_idx3, Cert.Spec.sum_grid]
  refine Finset.sum_congr rfl fun p _ => ?_
  rw [Fin.sum_univ_one, Fin.sum_univ_one]
  show Acc.acc m c (32 * p.val + 31) = _
  rw [Acc.acc_last]
  refine Finset.sum_congr rfl fun k _ => ?_
  have hlt : 32 * p.val + k.val < cfg0.N := by
    rw [show cfg0.N = 64 from N_0]; have := p.isLt; have := k.isLt; omega
  unfold Acc.blockSum
  rw [dif_pos hlt]
  exact Finset.sum_congr rfl fun r _ => Finset.sum_congr rfl fun l _ => contrib_eq m c ⟨32 * p.val + k.val, hlt⟩ p k rfl r l

end Cert.KernelIdeal.Final

end
-- ==== Proof.lean ====
/-
  A weighted mean squared error over `2^24` elements. Each element has a prediction `p`, a target `t` and a weight taken from a
  table of 501 bins: the bin is `t · 500` truncated to an integer and clipped into `[0, 500]`, the weight is `1 / table[bin]`
  (`1` where the table entry is below `1e-5`), and the element contributes `weight · d · d · 100` with `d = p − t`. The result is
  the sum of the contributions divided by `2^24`.

  The kernel program inverts the table first, pads it to `4 × 128` entries and walks the elements in `2 × 32` blocks of
  `2048 × 128`; inside a block the weight is found by splitting the bin into a row `bin / 128` and a lane `bin % 128` of the padded
  table, the block's contributions are summed to one number and added to an accumulator that restarts at the first block of each
  half; the two halves' totals are added and divided. The reference looks the weight up directly, inverts it afterwards, uses
  `|d|` in place of `d` and sums all elements at once.

  Over the extended reals the two agree: `|d| · |d| = d · d` (also at the infinities), a bin is at most 500 so the row and lane
  name the bin's own entry among the 501 genuine ones, and a sum may be taken block by block in any grouping because addition
  is associative and commutative and zero is neutral. No other law is used, so the precondition is never opened.

  The three frames are the generated ones (the reference's is its generated run with the result dropped); the idealization
  rewrote nothing, so the preservation claim is trivial.
-/
import proofs.«110971_j6184752906812_1_alg».proof.Defs
import proofs.«110971_j6184752906812_1_alg».proof.Proof.Gen.Kernel
import proofs.«110971_j6184752906812_1_alg».proof.Proof.Gen.Kernel.Skeleton
import proofs.«110971_j6184752906812_1_alg».proof.Proof.Gen.Kernel.Launch
import proofs.«110971_j6184752906812_1_alg».proof.Proof.Gen.Kernel.Points
import proofs.«110971_j6184752906812_1_alg».proof.Proof.Gen.Kernel.Frame
import proofs.«110971_j6184752906812_1_alg».proof.Proof.Gen.KernelIdeal
import proofs.«110971_j6184752906812_1_alg».proof.Proof.Gen.KernelIdeal.Skeleton
import proofs.«110971_j6184752906812_1_alg».proof.Proof.Gen.KernelIdeal.Launch
import proofs.«110971_j6184752906812_1_alg».proof.Proof.Gen.KernelIdeal.Points
import proofs.«110971_j6184752906812_1_alg».proof.Proof.Gen.KernelIdeal.Frame
import proofs.«110971_j6184752906812_1_alg».proof.Proof.Gen.ReferenceIdeal
import proofs.«110971_j6184752906812_1_alg».proof.Proof.Gen.ReferenceIdeal.Run
import proofs.«110971_j6184752906812_1_alg».proof.Proof.Gen.ReferenceIdeal.Read
import proofs.«110971_j6184752906812_1_alg».proof.Proof.Gen.Pre_finite_inputs
import proofs.«110971_j6184752906812_1_alg».proof.Proof.RefSide
import proofs.«110971_j6184752906812_1_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at zero plus the sum over all positions of the contributions, divided by `2^24`, of arguments
    that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq]
  funext i
  rw [Cert.ReferenceIdeal.RefValue.ref_value, (hagree c).1, (hagree c).2.1, (hagree c).2.2]
  exact (Cert.KernelIdeal.Final.result_eq m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
